-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x100 : Shape := ⟨2, ![64, 100]⟩
abbrev S100 : Shape := ⟨1, ![100]⟩
abbrev S100x50 : Shape := ⟨2, ![100, 50]⟩
abbrev S50 : Shape := ⟨1, ![50]⟩
abbrev S50x25 : Shape := ⟨2, ![50, 25]⟩
abbrev S25 : Shape := ⟨1, ![25]⟩
abbrev S25x25 : Shape := ⟨2, ![25, 25]⟩
abbrev S25x10 : Shape := ⟨2, ![25, 10]⟩
abbrev S10 : Shape := ⟨1, ![10]⟩
abbrev S10x1 : Shape := ⟨2, ![10, 1]⟩
abbrev S1 : Shape := ⟨1, ![1]⟩
abbrev S2x1000000 : Shape := ⟨2, ![2, 1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x100 : S_.BroadcastsInDim S64x100 (![] : Fin 0 → Fin S64x100.rank)
  reducesTo_S64x100_S_d0_1 : S64x100.ReducesTo [0, 1] S_
  bcast_S_S100 : S_.BroadcastsInDim S100 (![] : Fin 0 → Fin S100.rank)
  reducesTo_S100_S_d0 : S100.ReducesTo [0] S_
  bcast_S_S100x50 : S_.BroadcastsInDim S100x50 (![] : Fin 0 → Fin S100x50.rank)
  reducesTo_S100x50_S_d0_1 : S100x50.ReducesTo [0, 1] S_
  bcast_S_S50 : S_.BroadcastsInDim S50 (![] : Fin 0 → Fin S50.rank)
  reducesTo_S50_S_d0 : S50.ReducesTo [0] S_
  bcast_S_S50x25 : S_.BroadcastsInDim S50x25 (![] : Fin 0 → Fin S50x25.rank)
  reducesTo_S50x25_S_d0_1 : S50x25.ReducesTo [0, 1] S_
  bcast_S_S25 : S_.BroadcastsInDim S25 (![] : Fin 0 → Fin S25.rank)
  reducesTo_S25_S_d0 : S25.ReducesTo [0] S_
  bcast_S_S25x25 : S_.BroadcastsInDim S25x25 (![] : Fin 0 → Fin S25x25.rank)
  reducesTo_S25x25_S_d0_1 : S25x25.ReducesTo [0, 1] S_
  bcast_S_S25x10 : S_.BroadcastsInDim S25x10 (![] : Fin 0 → Fin S25x10.rank)
  reducesTo_S25x10_S_d0_1 : S25x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S10x1 .f32) (main_arg12 : FVec F S1 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S10x1 .f32 := Host.absf main_arg11
  let main_cst_20 : FVec F S_ .f32 := constant S_ .f32 0x7F800000#32
  let main_v55 : FVec F S10x1 .f32 := broadcastInDim S10x1 ![] bcast_S_S10x1 main_cst_20
  let main_v56 : IVec S10x1 1 := cmpf .olt main_v54 main_v55
  let main_c_21 : IVec S_ 1 := constantI S_ 1 1#1
  let main_v57 : IVec S_ 1 := (fun x v => Host.reduce IntOp.andi x v reducesTo_S10x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S25x25 .f32) (main_arg8 : FVec F S25 .f32) (main_arg9 : FVec F S25x10 .f32) (main_arg10 : FVec F S10 .f32) (main_arg11 : FVec F S10x1 .f32) (main_arg12 : FVec F S1 .f32) (main_v33 : IVec S_ 1) : IVec S_ 1 :=
  let main_v34 : FVec F S25x25 .f32 := Host.absf main_arg7
  let main_cst_12 : FVec F S_ .f32 := constant S_ .f32 0x7F800000#32
  let main_v35 : FVec F S25x25 .f32 := broadcastInDim S25x25 ![] bcast_S_S25x25 main_cst_12
  let main_v36 : IVec S25x25 1 := cmpf .olt main_v34 main_v35
  let main_c_13 : IVec S_ 1 := constantI S_ 1 1#1
  let main_v37 : IVec S_ 1 := (fun x v => Host.reduce IntOp.andi x v reducesTo_S25x25_S_d0_1 h_S_) main_v36 main_c_13
  let main_v38 : IVec S_ 1 := andi main_v33 main_v37
  let main_v39 : FVec F S25 .f32 := Host.absf main_arg8
  let main_cst_14 : FVec F S_ .f32 := constant S_ .f32 0x7F800000#32
  let main_v40 : FVec F S25 .f32 := broadcastInDim S25 ![] bcast_S_S25 main_cst_14
  let main_v41 : IVec S25 1 := cmpf .olt main_v39 main_v40
  let main_c_15 : IVec S_ 1 := constantI S_ 1 1#1
  let main_v42 : IVec S_ 1 := (fun x v => Host.reduce IntOp.andi x v reducesTo_S25_S_d0 h_S_) main_v41 main_c_15
  let main_v43 : IVec S_ 1 := andi main_v38 main_v42
  let main_v44 : FVec F S25x10 .f32 := Host.absf main_arg9
  let main_cst_16 : FVec F S_ .f32 := constant S_ .f32 0x7F800000#32
  let main_v45 : FVec F S25x10 .f32 := broadcastInDim S25x10 ![] bcast_S_S25x10 main_cst_16
  let main_v46 : IVec S25x10 1 := cmpf .olt main_v44 main_v45
  let main_c_17 : IVec S_ 1 := constantI S_ 1 1#1
  let main_v47 : IVec S_ 1 := (fun x v => Host.reduce IntOp.andi x v reducesTo_S25x10_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_v48 main_v49 main_v50

def fn_part1 {F : FTy → Type} [FloatOps F] (main_arg4 : FVec F S50 .f32) (main_arg5 : FVec F S50x25 .f32) (main_arg6 : FVec F S25 .f32) (main_arg7 : FVec F S25x25 .f32) (main_arg8 : FVec F S25 .f32) (main_arg9 : FVec F S25x10 .f32) (main_arg10 : FVec F S10 .f32) (main_arg11 : FVec F S10x1 .f32) (main_arg12 : FVec F S1 .f32) (main_v13 : IVec S_ 1) (main_v16 : IVec S100x50 1) : IVec S_ 1 :=
  let main_c_5 : IVec S_ 1 := constantI S_ 1 1#1
  let main_v17 : IVec S_ 1 := (fun x v => Host.reduce IntOp.andi x v reducesTo_S100x50_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x25 .f32 := Host.absf main_arg5
  let main_cst_8 : FVec F S_ .f32 := constant S_ .f32 0x7F800000#32
  let main_v25 : FVec F S50x25 .f32 := broadcastInDim S50x25 ![] bcast_S_S50x25 main_cst_8
  let main_v26 : IVec S50x25 1 := cmpf .olt main_v24 main_v25
  let main_c_9 : IVec S_ 1 := constantI S_ 1 1#1
  let main_v27 : IVec S_ 1 := (fun x v => Host.reduce IntOp.andi x v reducesTo_S50x25_S_d0_1 h_S_) main_v26 main_c_9
  let main_v28 : IVec S_ 1 := andi main_v23 main_v27
  let main_v29 : FVec F S25 .f32 := Host.absf main_arg6
  let main_cst_10 : FVec F S_ .f32 := constant S_ .f32 0x7F800000#32
  let main_v30 : FVec F S25 .f32 := broadcastInDim S25 ![] bcast_S_S25 main_cst_10
  let main_v31 : IVec S25 1 := cmpf .olt main_v29 main_v30
  let main_c_11 : IVec S_ 1 := constantI S_ 1 1#1
  let main_v32 : IVec S_ 1 := (fun x v => Host.reduce IntOp.andi x v reducesTo_S25_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x64 .f32) (main_arg1 : FVec F S64x100 .f32) (main_arg2 : FVec F S100 .f32) (main_arg3 : FVec F S100x50 .f32) (main_arg4 : FVec F S50 .f32) (main_arg5 : FVec F S50x25 .f32) (main_arg6 : FVec F S25 .f32) (main_arg7 : FVec F S25x25 .f32) (main_arg8 : FVec F S25 .f32) (main_arg9 : FVec F S25x10 .f32) (main_arg10 : FVec F S10 .f32) (main_arg11 : FVec F S10x1 .f32) (main_arg12 : FVec F S1 .f32) (main_arg13 : IVec S2x1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x100 .f32 := Host.absf main_arg1
  let main_cst_0 : FVec F S_ .f32 := constant S_ .f32 0x7F800000#32
  let main_v5 : FVec F S64x100 .f32 := broadcastInDim S64x100 ![] bcast_S_S64x100 main_cst_0
  let main_v6 : IVec S64x100 1 := cmpf .olt main_v4 main_v5
  let main_c_1 : IVec S_ 1 := constantI S_ 1 1#1
  let main_v7 : IVec S_ 1 := (fun x v => Host.reduce IntOp.andi x v reducesTo_S64x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x50 .f32 := Host.absf main_arg3
  let main_cst_4 : FVec F S_ .f32 := constant S_ .f32 0x7F800000#32
  let main_v15 : FVec F S100x50 .f32 := broadcastInDim S100x50 ![] bcast_S_S100x50 main_cst_4
  let main_v16 : IVec S100x50 1 := cmpf .olt main_v14 main_v15
  fn_part1 (F := F) main_arg4 main_arg5 main_arg6 main_arg7 main_arg8 main_arg9 main_arg10 main_arg11 main_arg12 main_v13 main_v16
-- ==== Kernel.lean ====
abbrev S100000x64 : Shape := ⟨2, ![100000, 64]⟩
abbrev S64x100 : Shape := ⟨2, ![64, 100]⟩
abbrev S100 : Shape := ⟨1, ![100]⟩
abbrev S100x50 : Shape := ⟨2, ![100, 50]⟩
abbrev S50 : Shape := ⟨1, ![50]⟩
abbrev S50x25 : Shape := ⟨2, ![50, 25]⟩
abbrev S25 : Shape := ⟨1, ![25]⟩
abbrev S25x25 : Shape := ⟨2, ![25, 25]⟩
abbrev S25x10 : Shape := ⟨2, ![25, 10]⟩
abbrev S10 : Shape := ⟨1, ![10]⟩
abbrev S10x1 : Shape := ⟨2, ![10, 1]⟩
abbrev S1 : Shape := ⟨1, ![1]⟩
abbrev S2x1000000 : Shape := ⟨2, ![2, 1000000]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x100 : Shape := ⟨2, ![100000, 100]⟩
abbrev S10000x64 : Shape := ⟨2, ![10000, 64]⟩
abbrev S10000x100 : Shape := ⟨2, ![10000, 100]⟩
abbrev S1100000x100 : Shape := ⟨2, ![1100000, 100]⟩
abbrev S1x100 : Shape := ⟨2, ![1, 100]⟩
abbrev S100000x50 : Shape := ⟨2, ![100000, 50]⟩
abbrev S10000x50 : Shape := ⟨2, ![10000, 50]⟩
abbrev S1100000x50 : Shape := ⟨2, ![1100000, 50]⟩
abbrev S1x50 : Shape := ⟨2, ![1, 50]⟩
abbrev S100000x25 : Shape := ⟨2, ![100000, 25]⟩
abbrev S10000x25 : Shape := ⟨2, ![10000, 25]⟩
abbrev S1100000x25 : Shape := ⟨2, ![1100000, 25]⟩
abbrev S1x25 : Shape := ⟨2, ![1, 25]⟩
abbrev S1x10 : Shape := ⟨2, ![1, 10]⟩
abbrev S1x1 : Shape := ⟨2, ![1, 1]⟩
abbrev S100000x1 : Shape := ⟨2, ![100000, 1]⟩
abbrev S10000x1 : Shape := ⟨2, ![10000, 1]⟩
abbrev S10000x10 : Shape := ⟨2, ![10000, 10]⟩

abbrev nBuf : Space → Nat
  | .hbm => 112
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S64x100, .f32⟩
  | .hbm, ⟨2, _⟩ => ⟨S100, .f32⟩
  | .hbm, ⟨3, _⟩ => ⟨S100x50, .f32⟩
  | .hbm, ⟨4, _⟩ => ⟨S50, .f32⟩
  | .hbm, ⟨5, _⟩ => ⟨S50x25, .f32⟩
  | .hbm, ⟨6, _⟩ => ⟨S25, .f32⟩
  | .hbm, ⟨7, _⟩ => ⟨S25x25, .f32⟩
  | .hbm, ⟨8, _⟩ => ⟨S25, .f32⟩
  | .hbm, ⟨9, _⟩ => ⟨S25x10, .f32⟩
  | .hbm, ⟨10, _⟩ => ⟨S10, .f32⟩
  | .hbm, ⟨11, _⟩ => ⟨S10x1, .f32⟩
  | .hbm, ⟨12, _⟩ => ⟨S1, .f32⟩
  | .hbm, ⟨13, _⟩ => ⟨S2x1000000, .i32⟩
  | .hbm, ⟨14, _⟩ => ⟨S1x1000000, .i32⟩
  | .hbm, ⟨15, _⟩ => ⟨S1000000, .i32⟩
  | .hbm, ⟨16, _⟩ => ⟨S1x1000000, .i32⟩
  | .hbm, ⟨17, _⟩ => ⟨S1000000, .i32⟩
  | .hbm, ⟨18, _⟩ => ⟨S100000, .i32⟩
  | .hbm, ⟨19, _⟩ => ⟨S1100000, .i32⟩
  | .hbm, ⟨20, _⟩ => ⟨S1100000, .i32⟩
  | .hbm, ⟨21, _⟩ => ⟨S_, .f32⟩
  | .hbm, ⟨22, _⟩ => ⟨S1100000, .f32⟩
  | .hbm, ⟨23, _⟩ => ⟨S_, .f32⟩
  | .hbm, ⟨24, _⟩ => ⟨S100000, .f32⟩
  | .hbm, ⟨25, _⟩ => ⟨S1100000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1100000, .i32⟩
  | .hbm, ⟨37, _⟩ => ⟨S1100000, .i1⟩
  | .hbm, ⟨38, _⟩ => ⟨S_, .i32⟩
  | .hbm, ⟨39, _⟩ => ⟨S1100000, .i32⟩
  | .hbm, ⟨40, _⟩ => ⟨S1100000, .i32⟩
  | .hbm, ⟨41, _⟩ => ⟨S1100000, .i32⟩
  | .hbm, ⟨42, _⟩ => ⟨S1100000x1, .i32⟩
  | .hbm, ⟨43, _⟩ => ⟨S1100000, .f32⟩
  | .hbm, ⟨44, _⟩ => ⟨S_, .i32⟩
  | .hbm, ⟨45, _⟩ => ⟨S1100000, .i32⟩
  | .hbm, ⟨46, _⟩ => ⟨S1100000, .i1⟩
  | .hbm, ⟨47, _⟩ => ⟨S_, .i32⟩
  | .hbm, ⟨48, _⟩ => ⟨S1100000, .i32⟩
  | .hbm, ⟨49, _⟩ => ⟨S1100000, .i32⟩
  | .hbm, ⟨50, _⟩ => ⟨S1100000, .i32⟩
  | .hbm, ⟨51, _⟩ => ⟨S1100000x1, .i32⟩
  | .hbm, ⟨52, _⟩ => ⟨S1100000, .f32⟩
  | .hbm, ⟨53, _⟩ => ⟨S1100000, .f32⟩
  | .hbm, ⟨54, _⟩ => ⟨S100000x100, .f32⟩
  | .hbm, ⟨55, _⟩ => ⟨S_, .i32⟩
  | .hbm, ⟨56, _⟩ => ⟨S1100000, .i32⟩
  | .hbm, ⟨57, _⟩ => ⟨S1100000, .i1⟩
  | .hbm, ⟨58, _⟩ => ⟨S_, .i32⟩
  | .hbm, ⟨59, _⟩ => ⟨S1100000, .i32⟩
  | .hbm, ⟨60, _⟩ => ⟨S1100000, .i32⟩
  | .hbm, ⟨61, _⟩ => ⟨S1100000, .i32⟩
  | .hbm, ⟨62, _⟩ => ⟨S1100000x1, .i32⟩
  | .hbm, ⟨63, _⟩ => ⟨S1100000x100, .f32⟩
  | .hbm, ⟨64, _⟩ => ⟨S1100000x1, .f32⟩
  | .hbm, ⟨65, _⟩ => ⟨S1100000x100, .f32⟩
  | .hbm, ⟨66, _⟩ => ⟨S1100000x100, .f32⟩
  | .hbm, ⟨67, _⟩ => ⟨S_, .f32⟩
  | .hbm, ⟨68, _⟩ => ⟨S100000x100, .f32⟩
  | .hbm, ⟨69, _⟩ => ⟨S1100000x1, .i32⟩
  | .hbm, ⟨70, _⟩ => ⟨S100000x100, .f32⟩
  | .hbm, ⟨71, _⟩ => ⟨S1x100, .f32⟩
  | .hbm, ⟨72, _⟩ => ⟨S100000x50, .f32⟩
  | .hbm, ⟨73, _⟩ => ⟨S_, .i32⟩
  | .hbm, ⟨74, _⟩ => ⟨S1100000, .i32⟩
  | .hbm, ⟨75, _⟩ => ⟨S1100000, .i1⟩
  | .hbm, ⟨76, _⟩ => ⟨S_, .i32⟩
  | .hbm, ⟨77, _⟩ => ⟨S1100000, .i32⟩
  | .hbm, ⟨78, _⟩ => ⟨S1100000, .i32⟩
  | .hbm, ⟨79, _⟩ => ⟨S1100000, .i32⟩
  | .hbm, ⟨80, _⟩ => ⟨S1100000x1, .i32⟩
  | .hbm, ⟨81, _⟩ => ⟨S1100000x50, .f32⟩
  | .hbm, ⟨82, _⟩ => ⟨S1100000x1, .f32⟩
  | .hbm, ⟨83, _⟩ => ⟨S1100000x50, .f32⟩
  | .hbm, ⟨84, _⟩ => ⟨S1100000x50, .f32⟩
  | .hbm, ⟨85, _⟩ => ⟨S_, .f32⟩
  | .hbm, ⟨86, _⟩ => ⟨S100000x50, .f32⟩
  | .hbm, ⟨87, _⟩ => ⟨S1100000x1, .i32⟩
  | .hbm, ⟨88, _⟩ => ⟨S100000x50, .f32⟩
  | .hbm, ⟨89, _⟩ => ⟨S1x50, .f32⟩
  | .hbm, ⟨90, _⟩ => ⟨S100000x25, .f32⟩
  | .hbm, ⟨91, _⟩ => ⟨S_, .i32⟩
  | .hbm, ⟨92, _⟩ => ⟨S1100000, .i32⟩
  | .hbm, ⟨93, _⟩ => ⟨S1100000, .i1⟩
  | .hbm, ⟨94, _⟩ => ⟨S_, .i32⟩
  | .hbm, ⟨95, _⟩ => ⟨S1100000, .i32⟩
  | .hbm, ⟨96, _⟩ => ⟨S1100000, .i32⟩
  | .hbm, ⟨97, _⟩ => ⟨S1100000, .i32⟩
  | .hbm, ⟨98, _⟩ => ⟨S1100000x1, .i32⟩
  | .hbm, ⟨99, _⟩ => ⟨S1100000x25, .f32⟩
  | .hbm, ⟨100, _⟩ => ⟨S1100000x1, .f32⟩
  | .hbm, ⟨101, _⟩ => ⟨S1100000x25, .f32⟩
  | .hbm, ⟨102, _⟩ => ⟨S1100000x25, .f32⟩
  | .hbm, ⟨103, _⟩ => ⟨S_, .f32⟩
  | .hbm, ⟨104, _⟩ => ⟨S100000x25, .f32⟩
  | .hbm, ⟨105, _⟩ => ⟨S1100000x1, .i32⟩
  | .hbm, ⟨106, _⟩ => ⟨S100000x25, .f32⟩
  | .hbm, ⟨107, _⟩ => ⟨S1x25, .f32⟩
  | .hbm, ⟨108, _⟩ => ⟨S1x25, .f32⟩
  | .hbm, ⟨109, _⟩ => ⟨S1x10, .f32⟩
  | .hbm, ⟨110, _⟩ => ⟨S1x1, .f32⟩
  | .hbm, ⟨111, _⟩ => ⟨S100000x1, .f32⟩
  | .local _ .vmem, ⟨0, _⟩ => ⟨S10000x64, .f32⟩
  | .local _ .vmem, ⟨1, _⟩ => ⟨S10000x64, .f32⟩
  | .local _ .vmem, ⟨2, _⟩ => ⟨S64x100, .f32⟩
  | .local _ .vmem, ⟨3, _⟩ => ⟨S10000x100, .f32⟩
  | .local _ .vmem, ⟨4, _⟩ => ⟨S10000x100, .f32⟩
  | .local _ .vmem, ⟨5, _⟩ => ⟨S10000x100, .f32⟩
  | .local _ .vmem, ⟨6, _⟩ => ⟨S10000x100, .f32⟩
  | .local _ .vmem, ⟨7, _⟩ => ⟨S1x100, .f32⟩
  | .local _ .vmem, ⟨8, _⟩ => ⟨S100x50, .f32⟩
  | .local _ .vmem, ⟨9, _⟩ => ⟨S10000x50, .f32⟩
  | .local _ .vmem, ⟨10, _⟩ => ⟨S10000x50, .f32⟩
  | .local _ .vmem, ⟨11, _⟩ => ⟨S10000x50, .f32⟩
  | .local _ .vmem, ⟨12, _⟩ => ⟨S10000x50, .f32⟩
  | .local _ .vmem, ⟨13, _⟩ => ⟨S1x50, .f32⟩
  | .local _ .vmem, ⟨14, _⟩ => ⟨S50x25, .f32⟩
  | .local _ .vmem, ⟨15, _⟩ => ⟨S10000x25, .f32⟩
  | .local _ .vmem, ⟨16, _⟩ => ⟨S10000x25, .f32⟩
  | .local _ .vmem, ⟨17, _⟩ => ⟨S10000x25, .f32⟩
  | .local _ .vmem, ⟨18, _⟩ => ⟨S10000x25, .f32⟩
  | .local _ .vmem, ⟨19, _⟩ => ⟨S1x25, .f32⟩
  | .local _ .vmem, ⟨20, _⟩ => ⟨S25x25, .f32⟩
  | .local _ .vmem, ⟨21, _⟩ => ⟨S1x25, .f32⟩
  | .local _ .vmem, ⟨22, _⟩ => ⟨S25x10, .f32⟩
  | .local _ .vmem, ⟨23, _⟩ => ⟨S1x10, .f32⟩
  | .local _ .vmem, ⟨24, _⟩ => ⟨S10x1, .f32⟩
  | .local _ .vmem, ⟨25, _⟩ => ⟨S1x1, .f32⟩
  | .local _ .vmem, ⟨26, _⟩ => ⟨S10000x1, .f32⟩
  | .local _ .vmem, ⟨27, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_12 : Ref sig .tc := ⟨.hbm, 91, rfl⟩
abbrev main_v61 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc3_stg8_0 : Ref sig .tc := ⟨.vmem, 26, rfl⟩
abbrev cc3_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25
abbrev cc3_sem8_0 : DmaSem sig := 26
abbrev cc3_sem8_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S100x50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x50 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x50 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x50 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S50x25 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x25 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x25 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x25 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S25x25 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x25 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S25x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S10x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S10000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S10000x64_S10000x64_0_0 : ∀ a, (![0, 0] : Fin 2 → Nat) a + S10000x64.size a ≤ S10000x64.size a
  h_S10000x64 : 0 < S10000x64.numel
  inb_S64x100_S64x100_0_0 : ∀ a, (![0, 0] : Fin 2 → Nat) a + S64x100.size a ≤ S64x100.size a
  h_S64x100 : 0 < S64x100.numel
  inb_S10000x100_S10000x100_0_0 : ∀ a, (![0, 0] : Fin 2 → Nat) a + S10000x100.size a ≤ S10000x100.size a
  h_S10000x100 : 0 < S10000x100.numel
  bcast_S1100000x1_S1100000x100_0_1 : S1100000x1.BroadcastsInDim S1100000x100 (![0, 1] : Fin 2 → Fin S1100000x100.rank)
  bcast_S_S100000x100 : S_.BroadcastsInDim S100000x100 (![] : Fin 0 → Fin S100000x100.rank)
  shapeCasts_S100_S1x100 : S100.ShapeCasts S1x100
  shapeCasts_S10000x100_S10000x100 : S10000x100.ShapeCasts S10000x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S10000x100 : S1x100.Broadcasts S10000x100
  inb_S100x50_S100x50_0_0 : ∀ a, (![0, 0] : Fin 2 → Nat) a + S100x50.size a ≤ S100x50.size a
  h_S100x50 : 0 < S100x50.numel
  inb_S10000x50_S10000x50_0_0 : ∀ a, (![0, 0] : Fin 2 → Nat) a + S10000x50.size a ≤ S10000x50.size a
  h_S10000x50 : 0 < S10000x50.numel
  bcast_S1100000x1_S1100000x50_0_1 : S1100000x1.BroadcastsInDim S1100000x50 (![0, 1] : Fin 2 → Fin S1100000x50.rank)
  bcast_S_S100000x50 : S_.BroadcastsInDim S100000x50 (![] : Fin 0 → Fin S100000x50.rank)
  shapeCasts_S50_S1x50 : S50.ShapeCasts S1x50
  shapeCasts_S10000x50_S10000x50 : S10000x50.ShapeCasts S10000x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S10000x50 : S1x50.Broadcasts S10000x50
  inb_S50x25_S50x25_0_0 : ∀ a, (![0, 0] : Fin 2 → Nat) a + S50x25.size a ≤ S50x25.size a
  h_S50x25 : 0 < S50x25.numel
  inb_S10000x25_S10000x25_0_0 : ∀ a, (![0, 0] : Fin 2 → Nat) a + S10000x25.size a ≤ S10000x25.size a
  h_S10000x25 : 0 < S10000x25.numel
  bcast_S1100000x1_S1100000x25_0_1 : S1100000x1.BroadcastsInDim S1100000x25 (![0, 1] : Fin 2 → Fin S1100000x25.rank)
  bcast_S_S100000x25 : S_.BroadcastsInDim S100000x25 (![] : Fin 0 → Fin S100000x25.rank)
  shapeCasts_S25_S1x25 : S25.ShapeCasts S1x25
  shapeCasts_S10_S1x10 : S10.ShapeCasts S1x10
  shapeCasts_S1_S1x1 : S1.ShapeCasts S1x1
  shapeCasts_S10000x25_S10000x25 : S10000x25.ShapeCasts S10000x25
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S10000x25 : S1x25.Broadcasts S10000x25
  inb_S25x25_S25x25_0_0 : ∀ a, (![0, 0] : Fin 2 → Nat) a + S25x25.size a ≤ S25x25.size a
  h_S25x25 : 0 < S25x25.numel
  inb_S25x10_S25x10_0_0 : ∀ a, (![0, 0] : Fin 2 → Nat) a + S25x10.size a ≤ S25x10.size a
  h_S25x10 : 0 < S25x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10x1_S10x1_0_0 : ∀ a, (![0, 0] : Fin 2 → Nat) a + S10x1.size a ≤ S10x1.size a
  h_S10x1 : 0 < S10x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x64_S64x100_S10000x100_1_0_0_1_n_n_wf : DotDims.WF S10000x64 S64x100 S10000x100 [1] [0] [0] [1] [] []
  gather_S100000x100_S1100000x1_S1100000x100_1_0_n_n_0_1_1100_wf : GatherDims.WF S100000x100 S1100000x1 S1100000x100 [1] [0] [] [0] [] 1 ![1, 100]
  scatter_S100000x100_S1100000x1_S1100000x100_1_0_0_1_wf : ScatterDims.WF S100000x100 S1100000x1 S1100000x100 [1] [0] [0] 1
  dot_S10000x100_S100x50_S10000x50_1_0_0_1_n_n_wf : DotDims.WF S10000x100 S100x50 S10000x50 [1] [0] [0] [1] [] []
  gather_S100000x50_S1100000x1_S1100000x50_1_0_n_n_0_1_150_wf : GatherDims.WF S100000x50 S1100000x1 S1100000x50 [1] [0] [] [0] [] 1 ![1, 50]
  scatter_S100000x50_S1100000x1_S1100000x50_1_0_0_1_wf : ScatterDims.WF S100000x50 S1100000x1 S1100000x50 [1] [0] [0] 1
  dot_S10000x50_S50x25_S10000x25_1_0_0_1_n_n_wf : DotDims.WF S10000x50 S50x25 S10000x25 [1] [0] [0] [1] [] []
  gather_S100000x25_S1100000x1_S1100000x25_1_0_n_n_0_1_125_wf : GatherDims.WF S100000x25 S1100000x1 S1100000x25 [1] [0] [] [0] [] 1 ![1, 25]
  scatter_S100000x25_S1100000x1_S1100000x25_1_0_0_1_wf : ScatterDims.WF S100000x25 S1100000x1 S1100000x25 [1] [0] [0] 1
  dot_S10000x25_S25x25_S10000x25_1_0_0_1_n_n_wf : DotDims.WF S10000x25 S25x25 S10000x25 [1] [0] [0] [1] [] []
  dot_S10000x25_S25x10_S10000x10_1_0_0_1_n_n_wf : DotDims.WF S10000x25 S25x10 S10000x10 [1] [0] [0] [1] [] []
  dot_S10000x10_S10x1_S10000x1_1_0_0_1_n_n_wf : DotDims.WF S10000x10 S10x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x100.size a ≤ S64x100.size a
  hwx0_1 : ∀ i : grid0.Coords, EltTy.bits .f32 = 32 ∨ (Rect.block (s := S64x100) S64x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x100.size a ≤ S100000x100.size a
  hwx0_2 : ∀ i : grid0.Coords, EltTy.bits .f32 = 32 ∨ (Rect.block (s := S100000x100) S10000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x100.size a ≤ S100000x100.size a
  hwx1_0 : ∀ i : grid1.Coords, EltTy.bits .f32 = 32 ∨ (Rect.block (s := S100000x100) S10000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x100.size a ≤ S1x100.size a
  hwx1_1 : ∀ i : grid1.Coords, EltTy.bits .f32 = 32 ∨ (Rect.block (s := S1x100) S1x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x50.size a ≤ S100x50.size a
  hwx1_2 : ∀ i : grid1.Coords, EltTy.bits .f32 = 32 ∨ (Rect.block (s := S100x50) S100x50.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x50.size a ≤ S100000x50.size a
  hwx1_3 : ∀ i : grid1.Coords, EltTy.bits .f32 = 32 ∨ (Rect.block (s := S100000x50) S10000x50.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x50.size a ≤ S100000x50.size a
  hwx2_0 : ∀ i : grid2.Coords, EltTy.bits .f32 = 32 ∨ (Rect.block (s := S100000x50) S10000x50.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x50.size a ≤ S1x50.size a
  hwx2_1 : ∀ i : grid2.Coords, EltTy.bits .f32 = 32 ∨ (Rect.block (s := S1x50) S1x50.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50x25.size a ≤ S50x25.size a
  hwx2_2 : ∀ i : grid2.Coords, EltTy.bits .f32 = 32 ∨ (Rect.block (s := S50x25) S50x25.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x25.size a ≤ S100000x25.size a
  hwx2_3 : ∀ i : grid2.Coords, EltTy.bits .f32 = 32 ∨ (Rect.block (s := S100000x25) S10000x25.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x25.size a ≤ S100000x25.size a
  hwx3_0 : ∀ i : grid3.Coords, EltTy.bits .f32 = 32 ∨ (Rect.block (s := S100000x25) S10000x25.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x25.size a ≤ S1x25.size a
  hwx3_1 : ∀ i : grid3.Coords, EltTy.bits .f32 = 32 ∨ (Rect.block (s := S1x25) S1x25.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S25x25.size a ≤ S25x25.size a
  hwx3_2 : ∀ i : grid3.Coords, EltTy.bits .f32 = 32 ∨ (Rect.block (s := S25x25) S25x25.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x25.size a ≤ S1x25.size a
  hwx3_3 : ∀ i : grid3.Coords, EltTy.bits .f32 = 32 ∨ (Rect.block (s := S1x25) S1x25.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S25x10.size a ≤ S25x10.size a
  hwx3_4 : ∀ i : grid3.Coords, EltTy.bits .f32 = 32 ∨ (Rect.block (s := S25x10) S25x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x10.size a ≤ S1x10.size a
  hwx3_5 : ∀ i : grid3.Coords, EltTy.bits .f32 = 32 ∨ (Rect.block (s := S1x10) S1x10.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S10x1.size a ≤ S10x1.size a
  hwx3_6 : ∀ i : grid3.Coords, EltTy.bits .f32 = 32 ∨ (Rect.block (s := S10x1) S10x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1.size a ≤ S1x1.size a
  hwx3_7 : ∀ i : grid3.Coords, EltTy.bits .f32 = 32 ∨ (Rect.block (s := S1x1) S1x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S10000x1.size a ≤ S100000x1.size a
  hwx3_8 : ∀ i : grid3.Coords, EltTy.bits .f32 = 32 ∨ (Rect.block (s := S100000x1) S10000x1.size (cc3_transform_8 i) (hinb3_8 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x64_S64x100_S10000x100_1_0_0_1_n_n : DotDims S10000x64 S64x100 S10000x100 where
  lhsContracting := [1]
  rhsContracting := [0]
  lhsNonContracting := [0]
  rhsNonContracting := [1]
  lhsBatch := []
  rhsBatch := []
  wf := dot_S10000x64_S64x100_S10000x100_1_0_0_1_n_n_wf
def gather_S100000x100_S1100000x1_S1100000x100_1_0_n_n_0_1_1100 : GatherDims S100000x100 S1100000x1 S1100000x100 where
  offsetDims := [1]
  collapsedSliceDims := [0]
  operandBatchingDims := []
  startIndicesBatchingDims := []
  startIndexMap := [0]
  indexVectorDim := 1
  sliceSizes := ![1, 100]
  wf := gather_S100000x100_S1100000x1_S1100000x100_1_0_n_n_0_1_1100_wf
def scatter_S100000x100_S1100000x1_S1100000x100_1_0_0_1 : ScatterDims S100000x100 S1100000x1 S1100000x100 where
  updateWindowDims := [1]
  insertedWindowDims := [0]
  scatterDimsToOperandDims := [0]
  indexVectorDim := 1
  wf := scatter_S100000x100_S1100000x1_S1100000x100_1_0_0_1_wf
def dot_S10000x100_S100x50_S10000x50_1_0_0_1_n_n : DotDims S10000x100 S100x50 S10000x50 where
  lhsContracting := [1]
  rhsContracting := [0]
  lhsNonContracting := [0]
  rhsNonContracting := [1]
  lhsBatch := []
  rhsBatch := []
  wf := dot_S10000x100_S100x50_S10000x50_1_0_0_1_n_n_wf
def gather_S100000x50_S1100000x1_S1100000x50_1_0_n_n_0_1_150 : GatherDims S100000x50 S1100000x1 S1100000x50 where
  offsetDims := [1]
  collapsedSliceDims := [0]
  operandBatchingDims := []
  startIndicesBatchingDims := []
  startIndexMap := [0]
  indexVectorDim := 1
  sliceSizes := ![1, 50]
  wf := gather_S100000x50_S1100000x1_S1100000x50_1_0_n_n_0_1_150_wf
def scatter_S100000x50_S1100000x1_S1100000x50_1_0_0_1 : ScatterDims S100000x50 S1100000x1 S1100000x50 where
  updateWindowDims := [1]
  insertedWindowDims := [0]
  scatterDimsToOperandDims := [0]
  indexVectorDim := 1
  wf := scatter_S100000x50_S1100000x1_S1100000x50_1_0_0_1_wf
def dot_S10000x50_S50x25_S10000x25_1_0_0_1_n_n : DotDims S10000x50 S50x25 S10000x25 where
  lhsContracting := [1]
  rhsContracting := [0]
  lhsNonContracting := [0]
  rhsNonContracting := [1]
  lhsBatch := []
  rhsBatch := []
  wf := dot_S10000x50_S50x25_S10000x25_1_0_0_1_n_n_wf
def gather_S100000x25_S1100000x1_S1100000x25_1_0_n_n_0_1_125 : GatherDims S100000x25 S1100000x1 S1100000x25 where
  offsetDims := [1]
  collapsedSliceDims := [0]
  operandBatchingDims := []
  startIndicesBatchingDims := []
  startIndexMap := [0]
  indexVectorDim := 1
  sliceSizes := ![1, 25]
  wf := gather_S100000x25_S1100000x1_S1100000x25_1_0_n_n_0_1_125_wf
def scatter_S100000x25_S1100000x1_S1100000x25_1_0_0_1 : ScatterDims S100000x25 S1100000x1 S1100000x25 where
  updateWindowDims := [1]
  insertedWindowDims := [0]
  scatterDimsToOperandDims := [0]
  indexVectorDim := 1
  wf := scatter_S100000x25_S1100000x1_S1100000x25_1_0_0_1_wf
def dot_S10000x25_S25x25_S10000x25_1_0_0_1_n_n : DotDims S10000x25 S25x25 S10000x25 where
  lhsContracting := [1]
  rhsContracting := [0]
  lhsNonContracting := [0]
  rhsNonContracting := [1]
  lhsBatch := []
  rhsBatch := []
  wf := dot_S10000x25_S25x25_S10000x25_1_0_0_1_n_n_wf
def dot_S10000x25_S25x10_S10000x10_1_0_0_1_n_n : DotDims S10000x25 S25x10 S10000x10 where
  lhsContracting := [1]
  rhsContracting := [0]
  lhsNonContracting := [0]
  rhsNonContracting := [1]
  lhsBatch := []
  rhsBatch := []
  wf := dot_S10000x25_S25x10_S10000x10_1_0_0_1_n_n_wf
def dot_S10000x10_S10x1_S10000x1_1_0_0_1_n_n : DotDims S10000x10 S10x1 S10000x1 where
  lhsContracting := [1]
  rhsContracting := [0]
  lhsNonContracting := [0]
  rhsNonContracting := [1]
  lhsBatch := []
  rhsBatch := []
  wf := dot_S10000x10_S10x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S100x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x50.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x50.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x50.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S50x25.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x25.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x25.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x25.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S25x25.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x25.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S25x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S1x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg11) S10x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v77) S1x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v78) S10000x1.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x64 : Shape := ⟨2, ![100000, 64]⟩
abbrev S64x100 : Shape := ⟨2, ![64, 100]⟩
abbrev S100 : Shape := ⟨1, ![100]⟩
abbrev S100x50 : Shape := ⟨2, ![100, 50]⟩
abbrev S50 : Shape := ⟨1, ![50]⟩
abbrev S50x25 : Shape := ⟨2, ![50, 25]⟩
abbrev S25 : Shape := ⟨1, ![25]⟩
abbrev S25x25 : Shape := ⟨2, ![25, 25]⟩
abbrev S25x10 : Shape := ⟨2, ![25, 10]⟩
abbrev S10 : Shape := ⟨1, ![10]⟩
abbrev S10x1 : Shape := ⟨2, ![10, 1]⟩
abbrev S1 : Shape := ⟨1, ![1]⟩
abbrev S2x1000000 : Shape := ⟨2, ![2, 1000000]⟩
abbrev S1x1000000 : Shape := ⟨2, ![1, 1000000]⟩
abbrev S1000000 : Shape := ⟨1, ![1000000]⟩
abbrev S100000x100 : Shape := ⟨2, ![100000, 100]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x100 : Shape := ⟨2, ![1100000, 100]⟩
abbrev S1x100 : Shape := ⟨2, ![1, 100]⟩
abbrev S100000x50 : Shape := ⟨2, ![100000, 50]⟩
abbrev S1100000x50 : Shape := ⟨2, ![1100000, 50]⟩
abbrev S1x50 : Shape := ⟨2, ![1, 50]⟩
abbrev S100000x25 : Shape := ⟨2, ![100000, 25]⟩
abbrev S1100000x25 : Shape := ⟨2, ![1100000, 25]⟩
abbrev S1x25 : Shape := ⟨2, ![1, 25]⟩
abbrev S100000x10 : Shape := ⟨2, ![100000, 10]⟩
abbrev S1x10 : Shape := ⟨2, ![1, 10]⟩
abbrev S100000x1 : Shape := ⟨2, ![100000, 1]⟩
abbrev S1x1 : Shape := ⟨2, ![1, 1]⟩

abbrev nBuf : Space → Nat
  | .hbm => 216
  | .vmem => 0
  | .smem => 0
  | _ => 0

abbrev hbmTy0_0 (i : Nat) : BufTy := match i % 128 with
  | 0 => ⟨S100000x64, .f32⟩
  | 1 => ⟨S64x100, .f32⟩
  | 2 => ⟨S100, .f32⟩
  | 3 => ⟨S100x50, .f32⟩
  | 4 => ⟨S50, .f32⟩
  | 5 => ⟨S50x25, .f32⟩
  | 6 => ⟨S25, .f32⟩
  | 7 => ⟨S25x25, .f32⟩
  | 8 => ⟨S25, .f32⟩
  | 9 => ⟨S25x10, .f32⟩
  | 10 => ⟨S10, .f32⟩
  | 11 => ⟨S10x1, .f32⟩
  | 12 => ⟨S1, .f32⟩
  | 13 => ⟨S2x1000000, .i32⟩
  | 14 => ⟨S1x1000000, .i32⟩
  | 15 => ⟨S1000000, .i32⟩
  | 16 => ⟨S1x1000000, .i32⟩
  | 17 => ⟨S1000000, .i32⟩
  | 18 => ⟨S100000x100, .f32⟩
  | 19 => ⟨S100000, .i32⟩
  | 20 => ⟨S1100000, .i32⟩
  | 21 => ⟨S1100000, .i32⟩
  | 22 => ⟨S_, .f32⟩
  | 23 => ⟨S1100000, .f32⟩
  | 24 => ⟨S_, .f32⟩
  | 25 => ⟨S100000, .f32⟩
  | 26 => ⟨S1100000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1100000, .i32⟩
  | 38 => ⟨S1100000, .i1⟩
  | 39 => ⟨S_, .i32⟩
  | 40 => ⟨S1100000, .i32⟩
  | 41 => ⟨S1100000, .i32⟩
  | 42 => ⟨S1100000, .i32⟩
  | 43 => ⟨S1100000x1, .i32⟩
  | 44 => ⟨S1100000, .f32⟩
  | 45 => ⟨S_, .i32⟩
  | 46 => ⟨S1100000, .i32⟩
  | 47 => ⟨S1100000, .i1⟩
  | 48 => ⟨S_, .i32⟩
  | 49 => ⟨S1100000, .i32⟩
  | 50 => ⟨S1100000, .i32⟩
  | 51 => ⟨S1100000, .i32⟩
  | 52 => ⟨S1100000x1, .i32⟩
  | 53 => ⟨S1100000, .f32⟩
  | 54 => ⟨S1100000, .f32⟩
  | 55 => ⟨S_, .i32⟩
  | 56 => ⟨S1100000, .i32⟩
  | 57 => ⟨S1100000, .i1⟩
  | 58 => ⟨S_, .i32⟩
  | 59 => ⟨S1100000, .i32⟩
  | 60 => ⟨S1100000, .i32⟩
  | 61 => ⟨S1100000, .i32⟩
  | 62 => ⟨S1100000x1, .i32⟩
  | 63 => ⟨S1100000x100, .f32⟩
  | 64 => ⟨S1100000x1, .f32⟩
  | 65 => ⟨S1100000x100, .f32⟩
  | 66 => ⟨S1100000x100, .f32⟩
  | 67 => ⟨S_, .f32⟩
  | 68 => ⟨S100000x100, .f32⟩
  | 69 => ⟨S1100000x1, .i32⟩
  | 70 => ⟨S100000x100, .f32⟩
  | 71 => ⟨S1x100, .f32⟩
  | 72 => ⟨S100000x100, .f32⟩
  | 73 => ⟨S100000x100, .f32⟩
  | 74 => ⟨S_, .f32⟩
  | 75 => ⟨S100000x100, .f32⟩
  | 76 => ⟨S100000x100, .f32⟩
  | 77 => ⟨S100000x50, .f32⟩
  | 78 => ⟨S100000, .i32⟩
  | 79 => ⟨S1100000, .i32⟩
  | 80 => ⟨S1100000, .i32⟩
  | 81 => ⟨S_, .f32⟩
  | 82 => ⟨S1100000, .f32⟩
  | 83 => ⟨S_, .f32⟩
  | 84 => ⟨S100000, .f32⟩
  | 85 => ⟨S1100000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1100000, .i32⟩
  | 97 => ⟨S1100000, .i1⟩
  | 98 => ⟨S_, .i32⟩
  | 99 => ⟨S1100000, .i32⟩
  | 100 => ⟨S1100000, .i32⟩
  | 101 => ⟨S1100000, .i32⟩
  | 102 => ⟨S1100000x1, .i32⟩
  | 103 => ⟨S1100000, .f32⟩
  | 104 => ⟨S_, .i32⟩
  | 105 => ⟨S1100000, .i32⟩
  | 106 => ⟨S1100000, .i1⟩
  | 107 => ⟨S_, .i32⟩
  | 108 => ⟨S1100000, .i32⟩
  | 109 => ⟨S1100000, .i32⟩
  | 110 => ⟨S1100000, .i32⟩
  | 111 => ⟨S1100000x1, .i32⟩
  | 112 => ⟨S1100000, .f32⟩
  | 113 => ⟨S1100000, .f32⟩
  | 114 => ⟨S_, .i32⟩
  | 115 => ⟨S1100000, .i32⟩
  | 116 => ⟨S1100000, .i1⟩
  | 117 => ⟨S_, .i32⟩
  | 118 => ⟨S1100000, .i32⟩
  | 119 => ⟨S1100000, .i32⟩
  | 120 => ⟨S1100000, .i32⟩
  | 121 => ⟨S1100000x1, .i32⟩
  | 122 => ⟨S1100000x50, .f32⟩
  | 123 => ⟨S1100000x1, .f32⟩
  | 124 => ⟨S1100000x50, .f32⟩
  | 125 => ⟨S1100000x50, .f32⟩
  | 126 => ⟨S_, .f32⟩
  | 127 => ⟨S100000x50, .f32⟩
  | _ => ⟨S100000x64, .f32⟩

abbrev hbmTy0_1 (i : Nat) : BufTy := match i % 128 with
  | 0 => ⟨S1100000x1, .i32⟩
  | 1 => ⟨S100000x50, .f32⟩
  | 2 => ⟨S1x50, .f32⟩
  | 3 => ⟨S100000x50, .f32⟩
  | 4 => ⟨S100000x50, .f32⟩
  | 5 => ⟨S_, .f32⟩
  | 6 => ⟨S100000x50, .f32⟩
  | 7 => ⟨S100000x50, .f32⟩
  | 8 => ⟨S100000x25, .f32⟩
  | 9 => ⟨S100000, .i32⟩
  | 10 => ⟨S1100000, .i32⟩
  | 11 => ⟨S1100000, .i32⟩
  | 12 => ⟨S_, .f32⟩
  | 13 => ⟨S1100000, .f32⟩
  | 14 => ⟨S_, .f32⟩
  | 15 => ⟨S100000, .f32⟩
  | 16 => ⟨S1100000x1, .i32⟩
  | 17 => ⟨S100000, .f32⟩
  | 18 => ⟨S_, .f32⟩
  | 19 => ⟨S100000, .f32⟩
  | 20 => ⟨S100000, .i1⟩
  | 21 => ⟨S100000, .f32⟩
  | 22 => ⟨S_, .f32⟩
  | 23 => ⟨S_, .f32⟩
  | 24 => ⟨S100000, .f32⟩
  | 25 => ⟨S100000, .f32⟩
  | 26 => ⟨S_, .i32⟩
  | 27 => ⟨S1100000, .i32⟩
  | 28 => ⟨S1100000, .i1⟩
  | 29 => ⟨S_, .i32⟩
  | 30 => ⟨S1100000, .i32⟩
  | 31 => ⟨S1100000, .i32⟩
  | 32 => ⟨S1100000, .i32⟩
  | 33 => ⟨S1100000x1, .i32⟩
  | 34 => ⟨S1100000, .f32⟩
  | 35 => ⟨S_, .i32⟩
  | 36 => ⟨S1100000, .i32⟩
  | 37 => ⟨S1100000, .i1⟩
  | 38 => ⟨S_, .i32⟩
  | 39 => ⟨S1100000, .i32⟩
  | 40 => ⟨S1100000, .i32⟩
  | 41 => ⟨S1100000, .i32⟩
  | 42 => ⟨S1100000x1, .i32⟩
  | 43 => ⟨S1100000, .f32⟩
  | 44 => ⟨S1100000, .f32⟩
  | 45 => ⟨S_, .i32⟩
  | 46 => ⟨S1100000, .i32⟩
  | 47 => ⟨S1100000, .i1⟩
  | 48 => ⟨S_, .i32⟩
  | 49 => ⟨S1100000, .i32⟩
  | 50 => ⟨S1100000, .i32⟩
  | 51 => ⟨S1100000, .i32⟩
  | 52 => ⟨S1100000x1, .i32⟩
  | 53 => ⟨S1100000x25, .f32⟩
  | 54 => ⟨S1100000x1, .f32⟩
  | 55 => ⟨S1100000x25, .f32⟩
  | 56 => ⟨S1100000x25, .f32⟩
  | 57 => ⟨S_, .f32⟩
  | 58 => ⟨S100000x25, .f32⟩
  | 59 => ⟨S1100000x1, .i32⟩
  | 60 => ⟨S100000x25, .f32⟩
  | 61 => ⟨S1x25, .f32⟩
  | 62 => ⟨S100000x25, .f32⟩
  | 63 => ⟨S100000x25, .f32⟩
  | 64 => ⟨S_, .f32⟩
  | 65 => ⟨S100000x25, .f32⟩
  | 66 => ⟨S100000x25, .f32⟩
  | 67 => ⟨S100000x25, .f32⟩
  | 68 => ⟨S1x25, .f32⟩
  | 69 => ⟨S100000x25, .f32⟩
  | 70 => ⟨S100000x25, .f32⟩
  | 71 => ⟨S_, .f32⟩
  | 72 => ⟨S100000x25, .f32⟩
  | 73 => ⟨S100000x25, .f32⟩
  | 74 => ⟨S100000x10, .f32⟩
  | 75 => ⟨S1x10, .f32⟩
  | 76 => ⟨S100000x10, .f32⟩
  | 77 => ⟨S100000x10, .f32⟩
  | 78 => ⟨S_, .f32⟩
  | 79 => ⟨S100000x10, .f32⟩
  | 80 => ⟨S100000x10, .f32⟩
  | 81 => ⟨S100000x1, .f32⟩
  | 82 => ⟨S1x1, .f32⟩
  | 83 => ⟨S100000x1, .f32⟩
  | 84 => ⟨S100000x1, .f32⟩
  | 85 => ⟨S_, .f32⟩
  | 86 => ⟨S100000x1, .f32⟩
  | 87 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v59 : Ref sig .tc := ⟨.hbm, 94, rfl⟩
abbrev main_c_13 : Ref sig .tc := ⟨.hbm, 95, rfl⟩
abbrev main_v60 : Ref sig .tc := ⟨.hbm, 96, rfl⟩
abbrev main_v61 : Ref sig .tc := ⟨.hbm, 97, rfl⟩
abbrev main_c_14 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_15 : Ref sig .tc := ⟨.hbm, 104, rfl⟩
abbrev main_v67 : Ref sig .tc := ⟨.hbm, 105, rfl⟩
abbrev main_v68 : Ref sig .tc := ⟨.hbm, 106, rfl⟩
abbrev main_c_16 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_17 : Ref sig .tc := ⟨.hbm, 114, rfl⟩
abbrev main_v75 : Ref sig .tc := ⟨.hbm, 115, rfl⟩
abbrev main_v76 : Ref sig .tc := ⟨.hbm, 116, rfl⟩
abbrev main_c_18 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_19 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_call3_cst : Ref sig .tc := ⟨.hbm, 133, rfl⟩
abbrev main_call3_v0 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_20 : Ref sig .tc := ⟨.hbm, 140, rfl⟩
abbrev main_v96 : Ref sig .tc := ⟨.hbm, 141, rfl⟩
abbrev main_cst_21 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_22 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_23 : Ref sig .tc := ⟨.hbm, 150, rfl⟩
abbrev main_call4_v0 : Ref sig .tc := ⟨.hbm, 151, rfl⟩
abbrev main_call4_v1 : Ref sig .tc := ⟨.hbm, 152, rfl⟩
abbrev main_v103 : Ref sig .tc := ⟨.hbm, 153, rfl⟩
abbrev main_c_24 : Ref sig .tc := ⟨.hbm, 154, rfl⟩
abbrev main_v104 : Ref sig .tc := ⟨.hbm, 155, rfl⟩
abbrev main_v105 : Ref sig .tc := ⟨.hbm, 156, rfl⟩
abbrev main_c_25 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_c_26 : Ref sig .tc := ⟨.hbm, 163, rfl⟩
abbrev main_v111 : Ref sig .tc := ⟨.hbm, 164, rfl⟩
abbrev main_v112 : Ref sig .tc := ⟨.hbm, 165, rfl⟩
abbrev main_c_27 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_c_28 : Ref sig .tc := ⟨.hbm, 173, rfl⟩
abbrev main_v119 : Ref sig .tc := ⟨.hbm, 174, rfl⟩
abbrev main_v120 : Ref sig .tc := ⟨.hbm, 175, rfl⟩
abbrev main_c_29 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_cst_30 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_call5_cst : Ref sig .tc := ⟨.hbm, 192, rfl⟩
abbrev main_call5_v0 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_call6_cst : Ref sig .tc := ⟨.hbm, 199, rfl⟩
abbrev main_call6_v0 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_call7_cst : Ref sig .tc := ⟨.hbm, 206, rfl⟩
abbrev main_call7_v0 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_call8_cst : Ref sig .tc := ⟨.hbm, 213, rfl⟩
abbrev main_call8_v0 : Ref sig .tc := ⟨.hbm, 214, rfl⟩
abbrev main_v150 : Ref sig .tc := ⟨.hbm, 215, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x100_0_1 : S1100000x1.BroadcastsInDim S1100000x100 (![0, 1] : Fin 2 → Fin S1100000x100.rank)
  bcast_S_S100000x100 : S_.BroadcastsInDim S100000x100 (![] : Fin 0 → Fin S100000x100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S1100000x1_S1100000x50_0_1 : S1100000x1.BroadcastsInDim S1100000x50 (![0, 1] : Fin 2 → Fin S1100000x50.rank)
  bcast_S_S100000x50 : S_.BroadcastsInDim S100000x50 (![] : Fin 0 → Fin S100000x50.rank)
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  bcast_S1100000x1_S1100000x25_0_1 : S1100000x1.BroadcastsInDim S1100000x25 (![0, 1] : Fin 2 → Fin S1100000x25.rank)
  bcast_S_S100000x25 : S_.BroadcastsInDim S100000x25 (![] : Fin 0 → Fin S100000x25.rank)
  bcast_S25_S1x25_1 : S25.BroadcastsInDim S1x25 (![1] : Fin 1 → Fin S1x25.rank)
  bcast_S1x25_S100000x25_0_1 : S1x25.BroadcastsInDim S100000x25 (![0, 1] : Fin 2 → Fin S100000x25.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S100000x10 : S_.BroadcastsInDim S100000x10 (![] : Fin 0 → Fin S100000x10.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x64_S64x100_S100000x100_1_0_0_1_n_n_wf : DotDims.WF S100000x64 S64x100 S100000x100 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x100_S1100000x1_S1100000x100_1_0_n_n_0_1_1100_wf : GatherDims.WF S100000x100 S1100000x1 S1100000x100 [1] [0] [] [0] [] 1 ![1, 100]
  scatter_S100000x100_S1100000x1_S1100000x100_1_0_0_1_wf : ScatterDims.WF S100000x100 S1100000x1 S1100000x100 [1] [0] [0] 1
  dot_S100000x100_S100x50_S100000x50_1_0_0_1_n_n_wf : DotDims.WF S100000x100 S100x50 S100000x50 [1] [0] [0] [1] [] []
  gather_S100000x50_S1100000x1_S1100000x50_1_0_n_n_0_1_150_wf : GatherDims.WF S100000x50 S1100000x1 S1100000x50 [1] [0] [] [0] [] 1 ![1, 50]
  scatter_S100000x50_S1100000x1_S1100000x50_1_0_0_1_wf : ScatterDims.WF S100000x50 S1100000x1 S1100000x50 [1] [0] [0] 1
  dot_S100000x50_S50x25_S100000x25_1_0_0_1_n_n_wf : DotDims.WF S100000x50 S50x25 S100000x25 [1] [0] [0] [1] [] []
  gather_S100000x25_S1100000x1_S1100000x25_1_0_n_n_0_1_125_wf : GatherDims.WF S100000x25 S1100000x1 S1100000x25 [1] [0] [] [0] [] 1 ![1, 25]
  scatter_S100000x25_S1100000x1_S1100000x25_1_0_0_1_wf : ScatterDims.WF S100000x25 S1100000x1 S1100000x25 [1] [0] [0] 1
  dot_S100000x25_S25x25_S100000x25_1_0_0_1_n_n_wf : DotDims.WF S100000x25 S25x25 S100000x25 [1] [0] [0] [1] [] []
  dot_S100000x25_S25x10_S100000x10_1_0_0_1_n_n_wf : DotDims.WF S100000x25 S25x10 S100000x10 [1] [0] [0] [1] [] []
  dot_S100000x10_S10x1_S100000x1_1_0_0_1_n_n_wf : DotDims.WF S100000x10 S10x1 S100000x1 [1] [0] [0] [1] [] []

variable [Facts₀]

def dot_S100000x64_S64x100_S100000x100_1_0_0_1_n_n : DotDims S100000x64 S64x100 S100000x100 where
  lhsContracting := [1]
  rhsContracting := [0]
  lhsNonContracting := [0]
  rhsNonContracting := [1]
  lhsBatch := []
  rhsBatch := []
  wf := dot_S100000x64_S64x100_S100000x100_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x100_S1100000x1_S1100000x100_1_0_n_n_0_1_1100 : GatherDims S100000x100 S1100000x1 S1100000x100 where
  offsetDims := [1]
  collapsedSliceDims := [0]
  operandBatchingDims := []
  startIndicesBatchingDims := []
  startIndexMap := [0]
  indexVectorDim := 1
  sliceSizes := ![1, 100]
  wf := gather_S100000x100_S1100000x1_S1100000x100_1_0_n_n_0_1_1100_wf
def scatter_S100000x100_S1100000x1_S1100000x100_1_0_0_1 : ScatterDims S100000x100 S1100000x1 S1100000x100 where
  updateWindowDims := [1]
  insertedWindowDims := [0]
  scatterDimsToOperandDims := [0]
  indexVectorDim := 1
  wf := scatter_S100000x100_S1100000x1_S1100000x100_1_0_0_1_wf
def dot_S100000x100_S100x50_S100000x50_1_0_0_1_n_n : DotDims S100000x100 S100x50 S100000x50 where
  lhsContracting := [1]
  rhsContracting := [0]
  lhsNonContracting := [0]
  rhsNonContracting := [1]
  lhsBatch := []
  rhsBatch := []
  wf := dot_S100000x100_S100x50_S100000x50_1_0_0_1_n_n_wf
def gather_S100000x50_S1100000x1_S1100000x50_1_0_n_n_0_1_150 : GatherDims S100000x50 S1100000x1 S1100000x50 where
  offsetDims := [1]
  collapsedSliceDims := [0]
  operandBatchingDims := []
  startIndicesBatchingDims := []
  startIndexMap := [0]
  indexVectorDim := 1
  sliceSizes := ![1, 50]
  wf := gather_S100000x50_S1100000x1_S1100000x50_1_0_n_n_0_1_150_wf
def scatter_S100000x50_S1100000x1_S1100000x50_1_0_0_1 : ScatterDims S100000x50 S1100000x1 S1100000x50 where
  updateWindowDims := [1]
  insertedWindowDims := [0]
  scatterDimsToOperandDims := [0]
  indexVectorDim := 1
  wf := scatter_S100000x50_S1100000x1_S1100000x50_1_0_0_1_wf
def dot_S100000x50_S50x25_S100000x25_1_0_0_1_n_n : DotDims S100000x50 S50x25 S100000x25 where
  lhsContracting := [1]
  rhsContracting := [0]
  lhsNonContracting := [0]
  rhsNonContracting := [1]
  lhsBatch := []
  rhsBatch := []
  wf := dot_S100000x50_S50x25_S100000x25_1_0_0_1_n_n_wf
def gather_S100000x25_S1100000x1_S1100000x25_1_0_n_n_0_1_125 : GatherDims S100000x25 S1100000x1 S1100000x25 where
  offsetDims := [1]
  collapsedSliceDims := [0]
  operandBatchingDims := []
  startIndicesBatchingDims := []
  startIndexMap := [0]
  indexVectorDim := 1
  sliceSizes := ![1, 25]
  wf := gather_S100000x25_S1100000x1_S1100000x25_1_0_n_n_0_1_125_wf
def scatter_S100000x25_S1100000x1_S1100000x25_1_0_0_1 : ScatterDims S100000x25 S1100000x1 S1100000x25 where
  updateWindowDims := [1]
  insertedWindowDims := [0]
  scatterDimsToOperandDims := [0]
  indexVectorDim := 1
  wf := scatter_S100000x25_S1100000x1_S1100000x25_1_0_0_1_wf
def dot_S100000x25_S25x25_S100000x25_1_0_0_1_n_n : DotDims S100000x25 S25x25 S100000x25 where
  lhsContracting := [1]
  rhsContracting := [0]
  lhsNonContracting := [0]
  rhsNonContracting := [1]
  lhsBatch := []
  rhsBatch := []
  wf := dot_S100000x25_S25x25_S100000x25_1_0_0_1_n_n_wf
def dot_S100000x25_S25x10_S100000x10_1_0_0_1_n_n : DotDims S100000x25 S25x10 S100000x10 where
  lhsContracting := [1]
  rhsContracting := [0]
  lhsNonContracting := [0]
  rhsNonContracting := [1]
  lhsBatch := []
  rhsBatch := []
  wf := dot_S100000x25_S25x10_S100000x10_1_0_0_1_n_n_wf
def dot_S100000x10_S10x1_S100000x1_1_0_0_1_n_n : DotDims S100000x10 S10x1 S100000x1 where
  lhsContracting := [1]
  rhsContracting := [0]
  lhsNonContracting := [0]
  rhsNonContracting := [1]
  lhsBatch := []
  rhsBatch := []
  wf := dot_S100000x10_S10x1_S100000x1_1_0_0_1_n_n_wf

class Facts : Prop extends Facts₀ where

variable [Facts]
-- ==== Proof.Fold3.lean ====
/-
  The kernel program's buffers when its first region is entered.

  Up to there @main has only prepared the graph: the source and target node of every edge with the self loops
  appended, and the symmetric normalisation `dinv[src] · dinv[dst]` from the in-degrees. The reference prepares the
  same three arrays by the same operations (it does so once per layer; the three copies are one term), so each is
  named here by the reference's stage of it. No argument array is written. Everything here is a comparison of
  operation sequences, so it holds for any float family.
-/
import proofs.«412520_j3032246911605_3_alg».proof.Proof.Gen.KernelIdeal.Frame
import proofs.«412520_j3032246911605_3_alg».proof.Proof.RefRead
import Idealize.ShloMosaic.Lib.StableHlo.Run

set_option maxRecDepth 16384

noncomputable section

namespace Cert.KernelIdeal.Fold

open Cert.KernelIdeal Cert.KernelIdeal.Gen Cert.ReferenceIdeal.ReadP
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- The argument arrays at their literal types. -/
abbrev a0 : (⟨S100000x64, .f32⟩ : BufTy).Contents (Elt F) := m ((c : Thread nD τ).loc main_arg0)
abbrev a1 : (⟨S64x100, .f32⟩ : BufTy).Contents (Elt F) := m ((c : Thread nD τ).loc main_arg1)
abbrev a2 : (⟨S100, .f32⟩ : BufTy).Contents (Elt F) := m ((c : Thread nD τ).loc main_arg2)
abbrev a3 : (⟨S100x50, .f32⟩ : BufTy).Contents (Elt F) := m ((c : Thread nD τ).loc main_arg3)
abbrev a4 : (⟨S50, .f32⟩ : BufTy).Contents (Elt F) := m ((c : Thread nD τ).loc main_arg4)
abbrev a5 : (⟨S50x25, .f32⟩ : BufTy).Contents (Elt F) := m ((c : Thread nD τ).loc main_arg5)
abbrev a6 : (⟨S25, .f32⟩ : BufTy).Contents (Elt F) := m ((c : Thread nD τ).loc main_arg6)
abbrev a7 : (⟨S25x25, .f32⟩ : BufTy).Contents (Elt F) := m ((c : Thread nD τ).loc main_arg7)
abbrev a8 : (⟨S25, .f32⟩ : BufTy).Contents (Elt F) := m ((c : Thread nD τ).loc main_arg8)
abbrev a9 : (⟨S25x10, .f32⟩ : BufTy).Contents (Elt F) := m ((c : Thread nD τ).loc main_arg9)
abbrev a10 : (⟨S10, .f32⟩ : BufTy).Contents (Elt F) := m ((c : Thread nD τ).loc main_arg10)
abbrev a11 : (⟨S10x1, .f32⟩ : BufTy).Contents (Elt F) := m ((c : Thread nD τ).loc main_arg11)
abbrev a12 : (⟨S1, .f32⟩ : BufTy).Contents (Elt F) := m ((c : Thread nD τ).loc main_arg12)
abbrev a13 : (⟨S2x1000000, .i32⟩ : BufTy).Contents (Elt F) := m ((c : Thread nD τ).loc main_arg13)

/-- Reads the fold of the three host stretches before the first region at one buffer. -/
macro "entry_results" : tactic =>
  `(tactic| (show StableHlo.after hostOps0_2 (StableHlo.after hostOps0_1 (StableHlo.after hostOps0 _)) _ = _
             dsimp only [hostOps0_2, hostOps0_1, hostOps0]
             after_results_simp))

theorem W3_arg0 : W3 m ρ c (Proc.devRef .tc main_arg0) = a0 m c := by
  entry_results
theorem W3_arg1 : W3 m ρ c (Proc.devRef .tc main_arg1) = a1 m c := by
  entry_results
theorem W3_arg2 : W3 m ρ c (Proc.devRef .tc main_arg2) = a2 m c := by
  entry_results
theorem W3_arg3 : W3 m ρ c (Proc.devRef .tc main_arg3) = a3 m c := by
  entry_results
theorem W3_arg4 : W3 m ρ c (Proc.devRef .tc main_arg4) = a4 m c := by
  entry_results
theorem W3_arg5 : W3 m ρ c (Proc.devRef .tc main_arg5) = a5 m c := by
  entry_results
theorem W3_arg6 : W3 m ρ c (Proc.devRef .tc main_arg6) = a6 m c := by
  entry_results
theorem W3_arg7 : W3 m ρ c (Proc.devRef .tc main_arg7) = a7 m c := by
  entry_results
theorem W3_arg8 : W3 m ρ c (Proc.devRef .tc main_arg8) = a8 m c := by
  entry_results
theorem W3_arg9 : W3 m ρ c (Proc.devRef .tc main_arg9) = a9 m c := by
  entry_results
theorem W3_arg10 : W3 m ρ c (Proc.devRef .tc main_arg10) = a10 m c := by
  entry_results
theorem W3_arg11 : W3 m ρ c (Proc.devRef .tc main_arg11) = a11 m c := by
  entry_results
theorem W3_arg12 : W3 m ρ c (Proc.devRef .tc main_arg12) = a12 m c := by
  entry_results

/-- The edges' source nodes, self loops appended. -/
theorem W3_v5 : W3 m ρ c (Proc.devRef .tc main_v5) = val_main_v6 (F := F) (a13 m c) := by
  entry_results
  rfl

/-- The edges' target nodes, self loops appended. -/
theorem W3_v6 : W3 m ρ c (Proc.devRef .tc main_v6) = val_main_v7 (F := F) (a13 m c) := by
  entry_results
  rfl

/-- The edges' normalisation. -/
theorem W3_v29 : W3 m ρ c (Proc.devRef .tc main_v29) = val_main_v30 (F := F) (a13 m c) := by
  entry_results
  rfl

end Cert.KernelIdeal.Fold

end
-- ==== Proof.RefAgg.lean ====
/-
  The reference's aggregation as a function of the projected rows.

  Each graph-convolution layer gathers the projected row of every edge's source node, scales it by the edge's
  normalisation and adds it into the row of the edge's target node. `agg1`, `agg2`, `agg3` name that step of the
  three layers (rows of width 100, 50, 25) as a function of the projected array and of the edge list, so that the
  layer's stage is the aggregation of its projection (`v43_agg`, `v87_agg`, `v131_agg`: by unfolding the stages).
  This only regroups operations: it holds for any float family.
-/
import proofs.«412520_j3032246911605_3_alg».proof.Proof.RefRead

noncomputable section

namespace Cert.ReferenceIdeal.Agg

open Cert.ReferenceIdeal Cert.ReferenceIdeal.ReadP
open Idealize.ShloMosaic

variable {F : FTy → Type} [FloatOps F]

/-- The first layer's aggregation of the projected rows `y` along the edges `x13`. -/
def agg1 (y : (⟨S100000x100, .f32⟩ : BufTy).Contents (Elt F)) (x13 : (⟨S2x1000000, .i32⟩ : BufTy).Contents (Elt F)) : (⟨S100000x100, .f32⟩ : BufTy).Contents (Elt F) :=
  Host.scatterAdd scatter_S100000x100_S1100000x1_S1100000x100_1_0_0_1 (val_main_v41 (F := F)) (val_main_v42 (F := F) x13)
    (mulf (Host.gather gather_S100000x100_S1100000x1_S1100000x100_1_0_n_n_0_1_1100 y (val_main_v36 (F := F) x13)) (val_main_v39 (F := F) x13))

/-- The second layer's. -/
def agg2 (y : (⟨S100000x50, .f32⟩ : BufTy).Contents (Elt F)) (x13 : (⟨S2x1000000, .i32⟩ : BufTy).Contents (Elt F)) : (⟨S100000x50, .f32⟩ : BufTy).Contents (Elt F) :=
  Host.scatterAdd scatter_S100000x50_S1100000x1_S1100000x50_1_0_0_1 (val_main_v85 (F := F)) (val_main_v86 (F := F) x13)
    (mulf (Host.gather gather_S100000x50_S1100000x1_S1100000x50_1_0_n_n_0_1_150 y (val_main_v80 (F := F) x13)) (val_main_v83 (F := F) x13))

/-- The third layer's. -/
def agg3 (y : (⟨S100000x25, .f32⟩ : BufTy).Contents (Elt F)) (x13 : (⟨S2x1000000, .i32⟩ : BufTy).Contents (Elt F)) : (⟨S100000x25, .f32⟩ : BufTy).Contents (Elt F) :=
  Host.scatterAdd scatter_S100000x25_S1100000x1_S1100000x25_1_0_0_1 (val_main_v129 (F := F)) (val_main_v130 (F := F) x13)
    (mulf (Host.gather gather_S100000x25_S1100000x1_S1100000x25_1_0_n_n_0_1_125 y (val_main_v124 (F := F) x13)) (val_main_v127 (F := F) x13))

variable (x0 : (⟨S100000x64, .f32⟩ : BufTy).Contents (Elt F)) (x1 : (⟨S64x100, .f32⟩ : BufTy).Contents (Elt F)) (x2 : (⟨S100, .f32⟩ : BufTy).Contents (Elt F))
  (x3 : (⟨S100x50, .f32⟩ : BufTy).Contents (Elt F)) (x4 : (⟨S50, .f32⟩ : BufTy).Contents (Elt F)) (x5 : (⟨S50x25, .f32⟩ : BufTy).Contents (Elt F))
  (x13 : (⟨S2x1000000, .i32⟩ : BufTy).Contents (Elt F))

/-- Every layer prepares the same edge arrays: the second and third copies are the first. -/
theorem src2_eq : val_main_v50 (F := F) x13 = val_main_v6 (F := F) x13 := rfl
theorem dst2_eq : val_main_v51 (F := F) x13 = val_main_v7 (F := F) x13 := rfl
theorem norm2_eq : val_main_v74 (F := F) x13 = val_main_v30 (F := F) x13 := rfl
theorem src3_eq : val_main_v94 (F := F) x13 = val_main_v6 (F := F) x13 := rfl
theorem dst3_eq : val_main_v95 (F := F) x13 = val_main_v7 (F := F) x13 := rfl
theorem norm3_eq : val_main_v118 (F := F) x13 = val_main_v30 (F := F) x13 := rfl

theorem v43_agg : val_main_v43 (F := F) x0 x1 x13 = agg1 (val_main_v4 (F := F) x0 x1) x13 := rfl

theorem v87_agg : val_main_v87 (F := F) x0 x1 x2 x3 x13 = agg2 (val_main_v48 (F := F) x0 x1 x2 x3 x13) x13 := rfl

theorem v131_agg : val_main_v131 (F := F) x0 x1 x2 x3 x4 x5 x13 = agg3 (val_main_v92 (F := F) x0 x1 x2 x3 x4 x5 x13) x13 := rfl

end Cert.ReferenceIdeal.Agg

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«412520_j3032246911605_3_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.Layer1.lean ====
/-
  The first graph-convolution projection, `X · W`, as the pipeline computes it: ten row blocks of 10000 nodes, each
  block's rows the product's rows of the same nodes.

  `dense X W` is the product on whole arrays. A block's stored value is the product of the block with the weights
  (`pay_eq`); the block at point `t` holds the array's rows `10000 t + r` (`blk0_read`); the weights are a whole-array
  window; so what point `t` writes back is block `t` of `dense` (`flushed_eq`). The ten blocks cover the array
  (`cover`), which therefore ends holding `dense` (`final`).
-/
import proofs.«412520_j3032246911605_3_alg».proof.Proof.Gen.KernelIdeal.Frame
import proofs.«412520_j3032246911605_3_alg».proof.Proof.LibRowOps
import Idealize.ShloMosaic.Lib.Pipeline.Value
import Idealize.ShloMosaic.Lib.ValueIdx

set_option maxRecDepth 16384

noncomputable section

namespace Cert.KernelIdeal.Layer1

open Cert.KernelIdeal Cert.KernelIdeal.Gen Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl
/-- The projection on whole arrays: every row of `X` times `W`. -/
def dense (X : S100000x64.Idx → EReal) (W : S64x100.Idx → EReal) : S100000x100.Idx → EReal :=
  projArr X W

theorem dims_eq : dot_S10000x64_S64x100_S10000x100_1_0_0_1_n_n = DotDims.plain 10000 64 100 := rfl

/-- The body's stored value: the block times the weights. -/
theorem pay_eq (x0 : Vec Ideal S10000x64 .f32) (x1 : Vec Ideal S64x100 .f32) :
    k0_pay1 x0 x1 = projArr x0 x1 := by
  unfold k0_pay1
  dsimp only
  rw [dims_eq]
  exact kernel_matmul_eq (M := 10000) (K := 64) (N := 100) none x0 x1

/-- The printed index maps over the grid: the row-blocked windows sit at block `t`, the others at the origin. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

theorem t_lt (t : Fin cfg0.N) : t.val < 10 := lt_of_lt_of_eq t.isLt N_0

/-- Row `r` of the input block at point `t` is row `10000 t + r` of the array. -/
theorem blk0_read (c : Dev nD) (t : Fin cfg0.N) (r : Fin 10000) (k : Fin 64) (hp : t.val * 10000 + r.val < 100000) :
    iblk0 V c 0 t (ix2 r k) = V c main_arg0 (ix2 (⟨t.val * 10000 + r.val, hp⟩ : Fin 100000) k) := by
  obtain ⟨ea, eb, -, -, -, -⟩ := idx_facts t
  show V c main_arg0 (((cfg0.win 0).blk t).view.emb (ix2 r k)) = _
  refine congrArg (V c main_arg0) (funext fun a => Fin.ext ?_)
  match a with
  | ⟨0, _⟩ => show win0_0.index t (0 : Fin 2) * 10000 + 1 * r.val = t.val * 10000 + r.val; omega
  | ⟨1, _⟩ => show win0_0.index t (1 : Fin 2) * 64 + 1 * k.val = k.val; omega

/-- Window 1's block is its whole array. -/
theorem blk1_read (c : Dev nD) (t : Fin cfg0.N) : (iblk0 V c 1 t : S64x100.Idx → EReal) = V c main_arg1 := by
  obtain ⟨-, -, ea, eb, -, -⟩ := idx_facts t
  funext y
  show V c main_arg1 (((cfg0.win 1).blk t).view.emb y) = _
  refine congrArg (V c main_arg1) (funext fun a => Fin.ext ?_)
  match a with
  | ⟨0, _⟩ => show win0_1.index t (0 : Fin 2) * 64 + 1 * (y 0).val = (y 0).val; omega
  | ⟨1, _⟩ => show win0_1.index t (1 : Fin 2) * 100 + 1 * (y 1).val = (y 1).val; omega

/-- Entry `(r, j)` of the output block at point `t` is entry `(10000 t + r, j)` of the array. -/
theorem out_emb (t : Fin cfg0.N) (r : Fin 10000) (j : Fin 100) (hp : t.val * 10000 + r.val < 100000) :
    (((cfg0.win 2).blk t).view.emb (ix2 r j) : S100000x100.Idx) = ix2 (⟨t.val * 10000 + r.val, hp⟩ : Fin 100000) j := by
  obtain ⟨-, -, -, -, ea, eb⟩ := idx_facts t
  refine funext fun a => Fin.ext ?_
  match a with
  | ⟨0, _⟩ => show win0_2.index t (0 : Fin 2) * 10000 + 1 * r.val = t.val * 10000 + r.val; omega
  | ⟨1, _⟩ => show win0_2.index t (1 : Fin 2) * 100 + 1 * j.val = j.val; omega

/-- What point `t` writes back is block `t` of `dense` of the arrays as the region finds them. -/
theorem flushed_eq (c : Dev nD) (t : Fin cfg0.N) :
    (dat0 V c).flushed 2 t
      = ((cfg0.win 2).blk t).view.read (Elt Ideal) (dense (V c main_arg0) (V c main_arg1)) := by
  show (cfg0.win 2).cut (grid0.coords t) ((dat0 V c).after 2 t) = _
  rw [after0_2]
  unfold out0_2
  rw [View.canon_unit_zero origin]
  simp only [View.ld_unit_zero (S := S10000x64) origin, View.ld_unit_zero (S := S64x100) origin]
  funext y
  obtain ⟨r, j, rfl⟩ : ∃ (r : Fin 10000) (j : Fin 100), y = ix2 r j := ⟨y 0, y 1, eq_ix2 y⟩
  have hp : t.val * 10000 + r.val < 100000 := by have := t_lt t; have := r.isLt; omega
  show k0_pay1 (iblk0 V c 0 t) (iblk0 V c 1 t) (ix2 r j)
    = dense (V c main_arg0) (V c main_arg1) (((cfg0.win 2).blk t).view.emb (ix2 r j))
  rw [out_emb t r j hp]
  refine (congrFun (pay_eq (iblk0 V c 0 t) (iblk0 V c 1 t)) (ix2 r j)).trans ?_
  have h0 : (fun k : Fin 64 => iblk0 V c 0 t (ix2 r k)) = fun k : Fin 64 => V c main_arg0 (ix2 (⟨t.val * 10000 + r.val, hp⟩ : Fin 100000) k) :=
    funext fun k => blk0_read V c t r k hp
  have h1 := blk1_read V c t
  show projRow (fun k : Fin 64 => iblk0 V c 0 t (ix2 r k)) (iblk0 V c 1 t) j
    = projRow (fun k : Fin 64 => V c main_arg0 (ix2 (⟨t.val * 10000 + r.val, hp⟩ : Fin 100000) k)) (V c main_arg1) j
  rw [h0, h1]

/-- An index of the array is in point `t`'s block iff each coordinate is in the block's range on its axis. -/
theorem mem_blk (t : Fin cfg0.N) (i : S100000x100.Idx) :
    i ∈ ((cfg0.win 2).blk t).view.set ↔ ∀ a : Fin 2, win0_2.index t a * S10000x100.size a ≤ (i a).val ∧ (i a).val < win0_2.index t a * S10000x100.size a + S10000x100.size a := by
  show i ∈ ((View.whole main_v30).slice (win0_2.rect t)).set ↔ _
  rw [View.set_slice_whole, Rect.mem_set_unit]
  exact Iff.rfl

/-- Every row lies in the block of the point `row / 10000`. -/
theorem cover (i : S100000x100.Idx) : ∃ t : Fin cfg0.N, (cfg0.win 2).flush t = true ∧ i ∈ ((cfg0.win 2).blk t).view.set := by
  have hi0 : (i 0).val < 100000 := (i 0).isLt
  have hi1 : (i 1).val < 100 := (i 1).isLt
  have ht : (i 0).val / 10000 < cfg0.N := by rw [show cfg0.N = 10 from N_0]; omega
  obtain ⟨-, -, -, -, ea, eb⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [ea]; show (i 0).val / 10000 * 10000 ≤ (i 0).val ∧ (i 0).val < (i 0).val / 10000 * 10000 + 10000; omega
  | ⟨1, _⟩ =>
    show win0_2.index ⟨(i 0).val / 10000, ht⟩ (1 : Fin 2) * 100 ≤ (i 1).val ∧ (i 1).val < win0_2.index ⟨(i 0).val / 10000, ht⟩ (1 : Fin 2) * 100 + 100
    rw [eb]; omega

/-- The output array after the region: `dense` of the input arrays as the region finds them. -/
theorem final (c : Dev nD) :
    (dat0 V c).arrAt 2 cfg0.N = dense (V c main_arg0) (V c main_arg1) :=
  (dat0 V c).arrAt_eq_of_cover 2 _ (fun t _ => flushed_eq V c t) cover

end Cert.KernelIdeal.Layer1

end
-- ==== Proof.RefLayers.lean ====
/-
  The reference's dense steps as whole-array functions.

  Between two aggregations the reference applies, to an array of node rows, a bias and the positive part and then a
  product with a weight matrix; after the last aggregation it applies the bias and positive part and three such
  products, each followed by its own bias and positive part. Each of these stages is, on whole arrays, one of the
  two row-wise functions `Cert.Lib.reluArr` and `Cert.Lib.projArr`: the host's `dot_general` is the plain product,
  and the bias vector broadcast to a row and down the rows is the bias row. The aggregation's output
  (`val_main_v43`, `val_main_v87`, `val_main_v131`) is kept as it is: both programs compute it by the same
  operations.
-/
import proofs.«412520_j3032246911605_3_alg».proof.Proof.RefRead
import proofs.«412520_j3032246911605_3_alg».proof.Proof.LibRowOps

noncomputable section

namespace Cert.ReferenceIdeal.Layers

open Cert.ReferenceIdeal Cert.ReferenceIdeal.ReadP Cert.Lib
open Idealize.ShloMosaic Idealize.ShloMosaic.ValueIdx

variable (x0 : (⟨S100000x64, .f32⟩ : BufTy).Contents (Elt Ideal)) (x1 : (⟨S64x100, .f32⟩ : BufTy).Contents (Elt Ideal)) (x2 : (⟨S100, .f32⟩ : BufTy).Contents (Elt Ideal))
  (x3 : (⟨S100x50, .f32⟩ : BufTy).Contents (Elt Ideal)) (x4 : (⟨S50, .f32⟩ : BufTy).Contents (Elt Ideal)) (x5 : (⟨S50x25, .f32⟩ : BufTy).Contents (Elt Ideal))
  (x6 : (⟨S25, .f32⟩ : BufTy).Contents (Elt Ideal)) (x7 : (⟨S25x25, .f32⟩ : BufTy).Contents (Elt Ideal)) (x8 : (⟨S25, .f32⟩ : BufTy).Contents (Elt Ideal))
  (x9 : (⟨S25x10, .f32⟩ : BufTy).Contents (Elt Ideal)) (x10 : (⟨S10, .f32⟩ : BufTy).Contents (Elt Ideal)) (x11 : (⟨S10x1, .f32⟩ : BufTy).Contents (Elt Ideal))
  (x12 : (⟨S1, .f32⟩ : BufTy).Contents (Elt Ideal)) (x13 : (⟨S2x1000000, .i32⟩ : BufTy).Contents (Elt Ideal))

theorem dims1 : dot_S100000x64_S64x100_S100000x100_1_0_0_1_n_n = DotDims.plain 100000 64 100 := rfl
theorem dims2 : dot_S100000x100_S100x50_S100000x50_1_0_0_1_n_n = DotDims.plain 100000 100 50 := rfl
theorem dims3 : dot_S100000x50_S50x25_S100000x25_1_0_0_1_n_n = DotDims.plain 100000 50 25 := rfl
theorem dims4 : dot_S100000x25_S25x25_S100000x25_1_0_0_1_n_n = DotDims.plain 100000 25 25 := rfl
theorem dims5 : dot_S100000x25_S25x10_S100000x10_1_0_0_1_n_n = DotDims.plain 100000 25 10 := rfl
theorem dims6 : dot_S100000x10_S10x1_S100000x1_1_0_0_1_n_n = DotDims.plain 100000 10 1 := rfl

/-- The first projection is the plain product of the features with the first weights. -/
theorem v4_eq : val_main_v4 (F := Ideal) x0 x1 = projArr x0 x1 := by
  unfold val_main_v4
  rw [dims1]
  exact host_dot_eq none x0 x1

/-- The second projection: the first aggregation plus its bias, the positive part, times the second weights. -/
theorem v48_eq (h : (⟨1, ![100]⟩ : Shape).ShapeCasts ⟨2, ![1, 100]⟩) :
    val_main_v48 (F := Ideal) x0 x1 x2 x3 x13
      = projArr (reluArr (val_main_v43 (F := Ideal) x0 x1 x13) (shapeCast ⟨2, ![1, 100]⟩ x2 h) (Ideal.ofBits .f32 0x00000000#32)) x3 := by
  unfold val_main_v48 val_main_v47 val_main_v46 val_main_v45 val_main_v44 val_main_call1_v0 val_main_call1_cst
  rw [dims2]
  refine (host_dot_eq none _ x3).trans ?_
  exact congrArg (fun f => projArr f x3) (host_biasRelu_eq _ x2 _ _ _ h _)

/-- The third projection: the second aggregation plus its bias, the positive part, times the third weights. -/
theorem v92_eq (h : (⟨1, ![50]⟩ : Shape).ShapeCasts ⟨2, ![1, 50]⟩) :
    val_main_v92 (F := Ideal) x0 x1 x2 x3 x4 x5 x13
      = projArr (reluArr (val_main_v87 (F := Ideal) x0 x1 x2 x3 x13) (shapeCast ⟨2, ![1, 50]⟩ x4 h) (Ideal.ofBits .f32 0x00000000#32)) x5 := by
  unfold val_main_v92 val_main_v91 val_main_v90 val_main_v89 val_main_v88 val_main_call3_v0 val_main_call3_cst
  rw [dims3]
  refine (host_dot_eq none _ x5).trans ?_
  exact congrArg (fun f => projArr f x5) (host_biasRelu_eq _ x4 _ _ _ h _)

/-- The result: the third aggregation plus its bias, the positive part, then the three dense layers of the head. -/
theorem v150_eq (h0 : (⟨1, ![25]⟩ : Shape).ShapeCasts ⟨2, ![1, 25]⟩) (h1 : (⟨1, ![25]⟩ : Shape).ShapeCasts ⟨2, ![1, 25]⟩)
    (h2 : (⟨1, ![10]⟩ : Shape).ShapeCasts ⟨2, ![1, 10]⟩) (h3 : (⟨1, ![1]⟩ : Shape).ShapeCasts ⟨2, ![1, 1]⟩) :
    val_main_v150 (F := Ideal) x0 x1 x2 x3 x4 x5 x6 x7 x8 x9 x10 x11 x12 x13
      = reluArr (projArr (reluArr (projArr (reluArr (projArr
          (reluArr (val_main_v131 (F := Ideal) x0 x1 x2 x3 x4 x5 x13) (shapeCast ⟨2, ![1, 25]⟩ x6 h0) (Ideal.ofBits .f32 0x00000000#32)) x7)
          (shapeCast ⟨2, ![1, 25]⟩ x8 h1) (Ideal.ofBits .f32 0x00000000#32)) x9) (shapeCast ⟨2, ![1, 10]⟩ x10 h2) (Ideal.ofBits .f32 0x00000000#32)) x11)
          (shapeCast ⟨2, ![1, 1]⟩ x12 h3) (Ideal.ofBits .f32 0x00000000#32) := by
  unfold val_main_v150 val_main_v149 val_main_v148 val_main_v147 val_main_call8_v0 val_main_call8_cst
    val_main_v146 val_main_v145 val_main_v144 val_main_v143 val_main_v142 val_main_call7_v0 val_main_call7_cst
    val_main_v141 val_main_v140 val_main_v139 val_main_v138 val_main_v137 val_main_call6_v0 val_main_call6_cst
    val_main_v136 val_main_v135 val_main_v134 val_main_v133 val_main_v132 val_main_call5_v0 val_main_call5_cst
  rw [dims4, dims5, dims6]
  refine (host_biasRelu_eq _ x12 _ _ _ h3 _).trans ?_
  refine congrArg (fun f => reluArr f (shapeCast ⟨2, ![1, 1]⟩ x12 h3) (Ideal.ofBits .f32 0x00000000#32)) ?_
  refine (host_dot_eq none _ x11).trans ?_
  refine congrArg (fun f => projArr f x11) ?_
  refine (host_biasRelu_eq _ x10 _ _ _ h2 _).trans ?_
  refine congrArg (fun f => reluArr f (shapeCast ⟨2, ![1, 10]⟩ x10 h2) (Ideal.ofBits .f32 0x00000000#32)) ?_
  refine (host_dot_eq none _ x9).trans ?_
  refine congrArg (fun f => projArr f x9) ?_
  refine (host_biasRelu_eq _ x8 _ _ _ h1 _).trans ?_
  refine congrArg (fun f => reluArr f (shapeCast ⟨2, ![1, 25]⟩ x8 h1) (Ideal.ofBits .f32 0x00000000#32)) ?_
  refine (host_dot_eq none _ x7).trans ?_
  exact congrArg (fun f => projArr f x7) (host_biasRelu_eq _ x6 _ _ _ h0 _)

end Cert.ReferenceIdeal.Layers

end
-- ==== Proof.Fold5.lean ====
/-
  The kernel program's buffers when its second region is entered.

  The first region leaves the first projection in its output array; the host stretch after it aggregates those
  rows along the edges and views the first bias as a row. The aggregation is the reference's, operation by
  operation (`W5_v43`), the edge arrays and the other arguments are carried over unchanged, and at the ideal
  values the projection is the reference's `dot_general` (`W4_v30`), so the aggregated array is the reference's
  first aggregation stage (`W5_v43_ideal`).
-/
import proofs.«412520_j3032246911605_3_alg».proof.Proof.Fold3
import proofs.«412520_j3032246911605_3_alg».proof.Proof.RefAgg
import proofs.«412520_j3032246911605_3_alg».proof.Proof.Layer1
import proofs.«412520_j3032246911605_3_alg».proof.Proof.RefLayers
import Idealize.ShloMosaic.Lib.StableHlo.Run

set_option maxRecDepth 16384

noncomputable section

namespace Cert.KernelIdeal.Fold

open Cert.KernelIdeal Cert.KernelIdeal.Gen Cert.ReferenceIdeal.ReadP
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- Reads the host stretch between the first and the second region at one buffer. -/
macro "stretch1_results" : tactic =>
  `(tactic| (show StableHlo.after hostOps1 _ _ = _
             dsimp only [hostOps1]
             after_results_simp))

theorem W5_v5 : W5 m ρ c (Proc.devRef .tc main_v5) = val_main_v6 (F := F) (a13 m c) := by
  stretch1_results
  exact (W4_of_ne m ρ c main_v5 (by decide)).trans (W3_v5 m ρ c)
theorem W5_v6 : W5 m ρ c (Proc.devRef .tc main_v6) = val_main_v7 (F := F) (a13 m c) := by
  stretch1_results
  exact (W4_of_ne m ρ c main_v6 (by decide)).trans (W3_v6 m ρ c)
theorem W5_v29 : W5 m ρ c (Proc.devRef .tc main_v29) = val_main_v30 (F := F) (a13 m c) := by
  stretch1_results
  exact (W4_of_ne m ρ c main_v29 (by decide)).trans (W3_v29 m ρ c)
theorem W5_arg3 : W5 m ρ c (Proc.devRef .tc main_arg3) = a3 m c := by
  stretch1_results
  exact (W4_of_ne m ρ c main_arg3 (by decide)).trans (W3_arg3 m ρ c)
theorem W5_arg4 : W5 m ρ c (Proc.devRef .tc main_arg4) = a4 m c := by
  stretch1_results
  exact (W4_of_ne m ρ c main_arg4 (by decide)).trans (W3_arg4 m ρ c)
theorem W5_arg5 : W5 m ρ c (Proc.devRef .tc main_arg5) = a5 m c := by
  stretch1_results
  exact (W4_of_ne m ρ c main_arg5 (by decide)).trans (W3_arg5 m ρ c)
theorem W5_arg6 : W5 m ρ c (Proc.devRef .tc main_arg6) = a6 m c := by
  stretch1_results
  exact (W4_of_ne m ρ c main_arg6 (by decide)).trans (W3_arg6 m ρ c)
theorem W5_arg7 : W5 m ρ c (Proc.devRef .tc main_arg7) = a7 m c := by
  stretch1_results
  exact (W4_of_ne m ρ c main_arg7 (by decide)).trans (W3_arg7 m ρ c)
theorem W5_arg8 : W5 m ρ c (Proc.devRef .tc main_arg8) = a8 m c := by
  stretch1_results
  exact (W4_of_ne m ρ c main_arg8 (by decide)).trans (W3_arg8 m ρ c)
theorem W5_arg9 : W5 m ρ c (Proc.devRef .tc main_arg9) = a9 m c := by
  stretch1_results
  exact (W4_of_ne m ρ c main_arg9 (by decide)).trans (W3_arg9 m ρ c)
theorem W5_arg10 : W5 m ρ c (Proc.devRef .tc main_arg10) = a10 m c := by
  stretch1_results
  exact (W4_of_ne m ρ c main_arg10 (by decide)).trans (W3_arg10 m ρ c)
theorem W5_arg11 : W5 m ρ c (Proc.devRef .tc main_arg11) = a11 m c := by
  stretch1_results
  exact (W4_of_ne m ρ c main_arg11 (by decide)).trans (W3_arg11 m ρ c)
theorem W5_arg12 : W5 m ρ c (Proc.devRef .tc main_arg12) = a12 m c := by
  stretch1_results
  exact (W4_of_ne m ρ c main_arg12 (by decide)).trans (W3_arg12 m ρ c)

/-- The first projection aggregated along the edges: the reference's aggregation of what the first region left. -/
theorem W5_v43 : W5 m ρ c (Proc.devRef .tc main_v43)
    = Cert.ReferenceIdeal.Agg.agg1 (F := F) (W4 m ρ c (Proc.devRef .tc main_v30)) (a13 m c) := by
  stretch1_results
  rw [W4_of_ne m ρ c main_v5 (by decide), W4_of_ne m ρ c main_v6 (by decide), W4_of_ne m ρ c main_v29 (by decide),
    W3_v5, W3_v6, W3_v29]
  rfl

/-- The first bias viewed as a row. -/
theorem W5_v44 (h : S100.ShapeCasts S1x100) : W5 m ρ c (Proc.devRef .tc main_v44) = shapeCast S1x100 (a2 m c) h := by
  stretch1_results
  rw [W4_of_ne m ρ c main_arg2 (by decide), W3_arg2]
  rfl

/-! ## At the ideal values -/

/-- What the first region leaves: the reference's first projection. -/
theorem W4_v30 (m : (ℓ : Loc nD τ sig) → Buf (Elt Ideal) ℓ) (ρ : Dev nD → PrngReg) (c : Dev nD) : W4 m ρ c (Proc.devRef .tc main_v30) = val_main_v4 (F := Ideal) (a0 m c) (a1 m c) :=
  (W4_arr m ρ c 2).trans ((Cert.KernelIdeal.Layer1.final (V3 m ρ) c).trans (by
    show Cert.KernelIdeal.Layer1.dense (W3 m ρ c (Proc.devRef .tc main_arg0)) (W3 m ρ c (Proc.devRef .tc main_arg1)) = _
    rw [W3_arg0, W3_arg1]
    exact (Cert.ReferenceIdeal.Layers.v4_eq _ _).symm))

/-- The second region's input rows: the reference's first aggregation stage. -/
theorem W5_v43_ideal (m : (ℓ : Loc nD τ sig) → Buf (Elt Ideal) ℓ) (ρ : Dev nD → PrngReg) (c : Dev nD) : W5 m ρ c (Proc.devRef .tc main_v43) = val_main_v43 (F := Ideal) (a0 m c) (a1 m c) (a13 m c) := by
  rw [W5_v43, W4_v30]
  exact (Cert.ReferenceIdeal.Agg.v43_agg _ _ _).symm

end Cert.KernelIdeal.Fold

end
-- ==== Proof.Layer2.lean ====
/-
  The second graph-convolution projection with the bias and positive part of the layer before it fused in,
  `relu (agg + b) · W`, as the pipeline computes it: ten row blocks of 10000 nodes, each block's rows the dense
  layer's rows of the same nodes.

  `dense A B W` is the layer on whole arrays. A block's stored value is the same two row-wise steps on the block
  (`pay_eq`); the block at point `t` holds the array's rows `10000 t + r` (`blk0_read`); the bias row and the weights
  are whole-array windows; so what point `t` writes back is block `t` of `dense` (`flushed_eq`). The ten blocks
  cover the array (`cover`), which therefore ends holding `dense` (`final`).
-/
import proofs.«412520_j3032246911605_3_alg».proof.Proof.Gen.KernelIdeal.Frame
import proofs.«412520_j3032246911605_3_alg».proof.Proof.LibRowOps
import Idealize.ShloMosaic.Lib.Pipeline.Value
import Idealize.ShloMosaic.Lib.ValueIdx

set_option maxRecDepth 16384

noncomputable section

namespace Cert.KernelIdeal.Layer2

open Cert.KernelIdeal Cert.KernelIdeal.Gen Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl
/-- The layer on whole arrays: every row of `A` plus the bias row, the positive part, times `W`. -/
def dense (A : S100000x100.Idx → EReal) (B : S1x100.Idx → EReal) (W : S100x50.Idx → EReal) : S100000x50.Idx → EReal :=
  projArr (reluArr A B (Ideal.ofBits .f32 0x00000000#32)) W

theorem dims_eq : dot_S10000x100_S100x50_S10000x50_1_0_0_1_n_n = DotDims.plain 10000 100 50 := rfl

/-- The body's stored value: the same two steps on the block. -/
theorem pay_eq (x0 : Vec Ideal S10000x100 .f32) (x1 : Vec Ideal S1x100 .f32) (x2 : Vec Ideal S100x50 .f32) :
    k1_pay1 x0 x1 x2 = projArr (reluArr x0 x1 (Ideal.ofBits .f32 0x00000000#32)) x2 := by
  unfold k1_pay1
  dsimp only
  rw [dims_eq]
  refine (kernel_matmul_eq (M := 10000) (K := 100) (N := 50) none _ x2).trans ?_
  exact congrArg (fun f => projArr f x2) (kernel_biasRelu_eq (M := 10000) (K := 100) x0 x1 _ _ _ _)

/-- The printed index maps over the grid: the row-blocked windows sit at block `t`, the others at the origin. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

theorem t_lt (t : Fin cfg1.N) : t.val < 10 := lt_of_lt_of_eq t.isLt N_1

/-- Row `r` of the input block at point `t` is row `10000 t + r` of the array. -/
theorem blk0_read (c : Dev nD) (t : Fin cfg1.N) (r : Fin 10000) (k : Fin 100) (hp : t.val * 10000 + r.val < 100000) :
    iblk1 V c 0 t (ix2 r k) = V c main_v43 (ix2 (⟨t.val * 10000 + r.val, hp⟩ : Fin 100000) k) := by
  obtain ⟨ea, eb, -, -, -, -, -, -⟩ := idx_facts t
  show V c main_v43 (((cfg1.win 0).blk t).view.emb (ix2 r k)) = _
  refine congrArg (V c main_v43) (funext fun a => Fin.ext ?_)
  match a with
  | ⟨0, _⟩ => show win1_0.index t (0 : Fin 2) * 10000 + 1 * r.val = t.val * 10000 + r.val; omega
  | ⟨1, _⟩ => show win1_0.index t (1 : Fin 2) * 100 + 1 * k.val = k.val; omega

/-- Window 1's block is its whole array. -/
theorem blk1_read (c : Dev nD) (t : Fin cfg1.N) : (iblk1 V c 1 t : S1x100.Idx → EReal) = V c main_v44 := by
  obtain ⟨-, -, ea, eb, -, -, -, -⟩ := idx_facts t
  funext y
  show V c main_v44 (((cfg1.win 1).blk t).view.emb y) = _
  refine congrArg (V c main_v44) (funext fun a => Fin.ext ?_)
  match a with
  | ⟨0, _⟩ => show win1_1.index t (0 : Fin 2) * 1 + 1 * (y 0).val = (y 0).val; omega
  | ⟨1, _⟩ => show win1_1.index t (1 : Fin 2) * 100 + 1 * (y 1).val = (y 1).val; omega

/-- Window 2's block is its whole array. -/
theorem blk2_read (c : Dev nD) (t : Fin cfg1.N) : (iblk1 V c 2 t : S100x50.Idx → EReal) = V c main_arg3 := by
  obtain ⟨-, -, -, -, ea, eb, -, -⟩ := idx_facts t
  funext y
  show V c main_arg3 (((cfg1.win 2).blk t).view.emb y) = _
  refine congrArg (V c main_arg3) (funext fun a => Fin.ext ?_)
  match a with
  | ⟨0, _⟩ => show win1_2.index t (0 : Fin 2) * 100 + 1 * (y 0).val = (y 0).val; omega
  | ⟨1, _⟩ => show win1_2.index t (1 : Fin 2) * 50 + 1 * (y 1).val = (y 1).val; omega

/-- Entry `(r, j)` of the output block at point `t` is entry `(10000 t + r, j)` of the array. -/
theorem out_emb (t : Fin cfg1.N) (r : Fin 10000) (j : Fin 50) (hp : t.val * 10000 + r.val < 100000) :
    (((cfg1.win 3).blk t).view.emb (ix2 r j) : S100000x50.Idx) = ix2 (⟨t.val * 10000 + r.val, hp⟩ : Fin 100000) j := by
  obtain ⟨-, -, -, -, -, -, ea, eb⟩ := idx_facts t
  refine funext fun a => Fin.ext ?_
  match a with
  | ⟨0, _⟩ => show win1_3.index t (0 : Fin 2) * 10000 + 1 * r.val = t.val * 10000 + r.val; omega
  | ⟨1, _⟩ => show win1_3.index t (1 : Fin 2) * 50 + 1 * j.val = j.val; omega

/-- What point `t` writes back is block `t` of `dense` of the arrays as the region finds them. -/
theorem flushed_eq (c : Dev nD) (t : Fin cfg1.N) :
    (dat1 V c).flushed 3 t
      = ((cfg1.win 3).blk t).view.read (Elt Ideal) (dense (V c main_v43) (V c main_v44) (V c main_arg3)) := by
  show (cfg1.win 3).cut (grid1.coords t) ((dat1 V c).after 3 t) = _
  rw [after1_3]
  unfold out1_3
  rw [View.canon_unit_zero origin]
  simp only [View.ld_unit_zero (S := S10000x100) origin, View.ld_unit_zero (S := S1x100) origin, View.ld_unit_zero (S := S100x50) origin]
  funext y
  obtain ⟨r, j, rfl⟩ : ∃ (r : Fin 10000) (j : Fin 50), y = ix2 r j := ⟨y 0, y 1, eq_ix2 y⟩
  have hp : t.val * 10000 + r.val < 100000 := by have := t_lt t; have := r.isLt; omega
  show k1_pay1 (iblk1 V c 0 t) (iblk1 V c 1 t) (iblk1 V c 2 t) (ix2 r j)
    = dense (V c main_v43) (V c main_v44) (V c main_arg3) (((cfg1.win 3).blk t).view.emb (ix2 r j))
  rw [out_emb t r j hp]
  refine (congrFun (pay_eq (iblk1 V c 0 t) (iblk1 V c 1 t) (iblk1 V c 2 t)) (ix2 r j)).trans ?_
  have h0 : (fun k : Fin 100 => iblk1 V c 0 t (ix2 r k)) = fun k : Fin 100 => V c main_v43 (ix2 (⟨t.val * 10000 + r.val, hp⟩ : Fin 100000) k) :=
    funext fun k => blk0_read V c t r k hp
  have h1 := blk1_read V c t
  have h2 := blk2_read V c t
  show projRow (reluRow (fun k : Fin 100 => iblk1 V c 0 t (ix2 r k)) (iblk1 V c 1 t) (Ideal.ofBits .f32 0x00000000#32)) (iblk1 V c 2 t) j
    = projRow (reluRow (fun k : Fin 100 => V c main_v43 (ix2 (⟨t.val * 10000 + r.val, hp⟩ : Fin 100000) k)) (V c main_v44) (Ideal.ofBits .f32 0x00000000#32)) (V c main_arg3) j
  rw [h0, h1, h2]

/-- An index of the array is in point `t`'s block iff each coordinate is in the block's range on its axis. -/
theorem mem_blk (t : Fin cfg1.N) (i : S100000x50.Idx) :
    i ∈ ((cfg1.win 3).blk t).view.set ↔ ∀ a : Fin 2, win1_3.index t a * S10000x50.size a ≤ (i a).val ∧ (i a).val < win1_3.index t a * S10000x50.size a + S10000x50.size a := by
  show i ∈ ((View.whole main_v45).slice (win1_3.rect t)).set ↔ _
  rw [View.set_slice_whole, Rect.mem_set_unit]
  exact Iff.rfl

/-- Every row lies in the block of the point `row / 10000`. -/
theorem cover (i : S100000x50.Idx) : ∃ t : Fin cfg1.N, (cfg1.win 3).flush t = true ∧ i ∈ ((cfg1.win 3).blk t).view.set := by
  have hi0 : (i 0).val < 100000 := (i 0).isLt
  have hi1 : (i 1).val < 50 := (i 1).isLt
  have ht : (i 0).val / 10000 < cfg1.N := by rw [show cfg1.N = 10 from N_1]; omega
  obtain ⟨-, -, -, -, -, -, ea, eb⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [ea]; show (i 0).val / 10000 * 10000 ≤ (i 0).val ∧ (i 0).val < (i 0).val / 10000 * 10000 + 10000; omega
  | ⟨1, _⟩ =>
    show win1_3.index ⟨(i 0).val / 10000, ht⟩ (1 : Fin 2) * 50 ≤ (i 1).val ∧ (i 1).val < win1_3.index ⟨(i 0).val / 10000, ht⟩ (1 : Fin 2) * 50 + 50
    rw [eb]; omega

/-- The output array after the region: `dense` of the input arrays as the region finds them. -/
theorem final (c : Dev nD) :
    (dat1 V c).arrAt 3 cfg1.N = dense (V c main_v43) (V c main_v44) (V c main_arg3) :=
  (dat1 V c).arrAt_eq_of_cover 3 _ (fun t _ => flushed_eq V c t) cover

end Cert.KernelIdeal.Layer2

end
-- ==== Proof.Fold7.lean ====
/-
  The kernel program's buffers when its third region is entered.

  The second region leaves, at the ideal values, the reference's second projection (`W6_v45`); the host stretch
  after it aggregates those rows along the same edges, which is the reference's second aggregation stage
  (`W7_v58`, `W7_v58_ideal`: the reference prepares the edge arrays again, by the same operations), and views the
  second bias as a row. The edge arrays and the other arguments are carried over unchanged.
-/
import proofs.«412520_j3032246911605_3_alg».proof.Proof.Fold5
import proofs.«412520_j3032246911605_3_alg».proof.Proof.Layer2
import Idealize.ShloMosaic.Lib.StableHlo.Run

set_option maxRecDepth 16384

noncomputable section

namespace Cert.KernelIdeal.Fold

open Cert.KernelIdeal Cert.KernelIdeal.Gen Cert.ReferenceIdeal.ReadP
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- Reads the host stretch between the second and the third region at one buffer. -/
macro "stretch2_results" : tactic =>
  `(tactic| (show StableHlo.after hostOps2 _ _ = _
             dsimp only [hostOps2]
             after_results_simp))

theorem W7_v5 : W7 m ρ c (Proc.devRef .tc main_v5) = val_main_v6 (F := F) (a13 m c) := by
  stretch2_results
  exact (W6_of_ne m ρ c main_v5 (by decide)).trans (W5_v5 m ρ c)
theorem W7_v6 : W7 m ρ c (Proc.devRef .tc main_v6) = val_main_v7 (F := F) (a13 m c) := by
  stretch2_results
  exact (W6_of_ne m ρ c main_v6 (by decide)).trans (W5_v6 m ρ c)
theorem W7_v29 : W7 m ρ c (Proc.devRef .tc main_v29) = val_main_v30 (F := F) (a13 m c) := by
  stretch2_results
  exact (W6_of_ne m ρ c main_v29 (by decide)).trans (W5_v29 m ρ c)
theorem W7_arg5 : W7 m ρ c (Proc.devRef .tc main_arg5) = a5 m c := by
  stretch2_results
  exact (W6_of_ne m ρ c main_arg5 (by decide)).trans (W5_arg5 m ρ c)
theorem W7_arg6 : W7 m ρ c (Proc.devRef .tc main_arg6) = a6 m c := by
  stretch2_results
  exact (W6_of_ne m ρ c main_arg6 (by decide)).trans (W5_arg6 m ρ c)
theorem W7_arg7 : W7 m ρ c (Proc.devRef .tc main_arg7) = a7 m c := by
  stretch2_results
  exact (W6_of_ne m ρ c main_arg7 (by decide)).trans (W5_arg7 m ρ c)
theorem W7_arg8 : W7 m ρ c (Proc.devRef .tc main_arg8) = a8 m c := by
  stretch2_results
  exact (W6_of_ne m ρ c main_arg8 (by decide)).trans (W5_arg8 m ρ c)
theorem W7_arg9 : W7 m ρ c (Proc.devRef .tc main_arg9) = a9 m c := by
  stretch2_results
  exact (W6_of_ne m ρ c main_arg9 (by decide)).trans (W5_arg9 m ρ c)
theorem W7_arg10 : W7 m ρ c (Proc.devRef .tc main_arg10) = a10 m c := by
  stretch2_results
  exact (W6_of_ne m ρ c main_arg10 (by decide)).trans (W5_arg10 m ρ c)
theorem W7_arg11 : W7 m ρ c (Proc.devRef .tc main_arg11) = a11 m c := by
  stretch2_results
  exact (W6_of_ne m ρ c main_arg11 (by decide)).trans (W5_arg11 m ρ c)
theorem W7_arg12 : W7 m ρ c (Proc.devRef .tc main_arg12) = a12 m c := by
  stretch2_results
  exact (W6_of_ne m ρ c main_arg12 (by decide)).trans (W5_arg12 m ρ c)

/-- The second projection aggregated along the edges: the reference's aggregation of what the second region left. -/
theorem W7_v58 : W7 m ρ c (Proc.devRef .tc main_v58)
    = Cert.ReferenceIdeal.Agg.agg2 (F := F) (W6 m ρ c (Proc.devRef .tc main_v45)) (a13 m c) := by
  stretch2_results
  rw [W6_of_ne m ρ c main_v5 (by decide), W6_of_ne m ρ c main_v6 (by decide), W6_of_ne m ρ c main_v29 (by decide),
    W5_v5, W5_v6, W5_v29]
  rfl

/-- The second bias viewed as a row. -/
theorem W7_v59 (h : S50.ShapeCasts S1x50) : W7 m ρ c (Proc.devRef .tc main_v59) = shapeCast S1x50 (a4 m c) h := by
  stretch2_results
  rw [W6_of_ne m ρ c main_arg4 (by decide), W5_arg4]
  rfl

/-! ## At the ideal values -/

/-- What the second region leaves: the reference's second projection. -/
theorem W6_v45 (m : (ℓ : Loc nD τ sig) → Buf (Elt Ideal) ℓ) (ρ : Dev nD → PrngReg) (c : Dev nD) (h : S100.ShapeCasts S1x100) : W6 m ρ c (Proc.devRef .tc main_v45)
    = val_main_v48 (F := Ideal) (a0 m c) (a1 m c) (a2 m c) (a3 m c) (a13 m c) :=
  (W6_arr m ρ c 3).trans ((Cert.KernelIdeal.Layer2.final (V5 m ρ) c).trans (by
    show Cert.KernelIdeal.Layer2.dense (W5 m ρ c (Proc.devRef .tc main_v43)) (W5 m ρ c (Proc.devRef .tc main_v44))
      (W5 m ρ c (Proc.devRef .tc main_arg3)) = _
    rw [W5_v43_ideal, W5_v44 m ρ c h, W5_arg3]
    exact (Cert.ReferenceIdeal.Layers.v48_eq _ _ _ _ _ h).symm))

/-- The third region's input rows: the reference's second aggregation stage. -/
theorem W7_v58_ideal (m : (ℓ : Loc nD τ sig) → Buf (Elt Ideal) ℓ) (ρ : Dev nD → PrngReg) (c : Dev nD) (h : S100.ShapeCasts S1x100) : W7 m ρ c (Proc.devRef .tc main_v58)
    = val_main_v87 (F := Ideal) (a0 m c) (a1 m c) (a2 m c) (a3 m c) (a13 m c) := by
  rw [W7_v58, W6_v45 m ρ c h]
  exact (Cert.ReferenceIdeal.Agg.v87_agg _ _ _ _ _).symm

end Cert.KernelIdeal.Fold

end
-- ==== Proof.Layer3.lean ====
/-
  The third graph-convolution projection with the bias and positive part of the layer before it fused in,
  `relu (agg + b) · W`, as the pipeline computes it: ten row blocks of 10000 nodes, each block's rows the dense
  layer's rows of the same nodes.

  `dense A B W` is the layer on whole arrays. A block's stored value is the same two row-wise steps on the block
  (`pay_eq`); the block at point `t` holds the array's rows `10000 t + r` (`blk0_read`); the bias row and the weights
  are whole-array windows; so what point `t` writes back is block `t` of `dense` (`flushed_eq`). The ten blocks
  cover the array (`cover`), which therefore ends holding `dense` (`final`).
-/
import proofs.«412520_j3032246911605_3_alg».proof.Proof.Gen.KernelIdeal.Frame
import proofs.«412520_j3032246911605_3_alg».proof.Proof.LibRowOps
import Idealize.ShloMosaic.Lib.Pipeline.Value
import Idealize.ShloMosaic.Lib.ValueIdx

set_option maxRecDepth 16384

noncomputable section

namespace Cert.KernelIdeal.Layer3

open Cert.KernelIdeal Cert.KernelIdeal.Gen Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl
/-- The layer on whole arrays: every row of `A` plus the bias row, the positive part, times `W`. -/
def dense (A : S100000x50.Idx → EReal) (B : S1x50.Idx → EReal) (W : S50x25.Idx → EReal) : S100000x25.Idx → EReal :=
  projArr (reluArr A B (Ideal.ofBits .f32 0x00000000#32)) W

theorem dims_eq : dot_S10000x50_S50x25_S10000x25_1_0_0_1_n_n = DotDims.plain 10000 50 25 := rfl

/-- The body's stored value: the same two steps on the block. -/
theorem pay_eq (x0 : Vec Ideal S10000x50 .f32) (x1 : Vec Ideal S1x50 .f32) (x2 : Vec Ideal S50x25 .f32) :
    k2_pay1 x0 x1 x2 = projArr (reluArr x0 x1 (Ideal.ofBits .f32 0x00000000#32)) x2 := by
  unfold k2_pay1
  dsimp only
  rw [dims_eq]
  refine (kernel_matmul_eq (M := 10000) (K := 50) (N := 25) none _ x2).trans ?_
  exact congrArg (fun f => projArr f x2) (kernel_biasRelu_eq (M := 10000) (K := 50) x0 x1 _ _ _ _)

/-- The printed index maps over the grid: the row-blocked windows sit at block `t`, the others at the origin. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

theorem t_lt (t : Fin cfg2.N) : t.val < 10 := lt_of_lt_of_eq t.isLt N_2

/-- Row `r` of the input block at point `t` is row `10000 t + r` of the array. -/
theorem blk0_read (c : Dev nD) (t : Fin cfg2.N) (r : Fin 10000) (k : Fin 50) (hp : t.val * 10000 + r.val < 100000) :
    iblk2 V c 0 t (ix2 r k) = V c main_v58 (ix2 (⟨t.val * 10000 + r.val, hp⟩ : Fin 100000) k) := by
  obtain ⟨ea, eb, -, -, -, -, -, -⟩ := idx_facts t
  show V c main_v58 (((cfg2.win 0).blk t).view.emb (ix2 r k)) = _
  refine congrArg (V c main_v58) (funext fun a => Fin.ext ?_)
  match a with
  | ⟨0, _⟩ => show win2_0.index t (0 : Fin 2) * 10000 + 1 * r.val = t.val * 10000 + r.val; omega
  | ⟨1, _⟩ => show win2_0.index t (1 : Fin 2) * 50 + 1 * k.val = k.val; omega

/-- Window 1's block is its whole array. -/
theorem blk1_read (c : Dev nD) (t : Fin cfg2.N) : (iblk2 V c 1 t : S1x50.Idx → EReal) = V c main_v59 := by
  obtain ⟨-, -, ea, eb, -, -, -, -⟩ := idx_facts t
  funext y
  show V c main_v59 (((cfg2.win 1).blk t).view.emb y) = _
  refine congrArg (V c main_v59) (funext fun a => Fin.ext ?_)
  match a with
  | ⟨0, _⟩ => show win2_1.index t (0 : Fin 2) * 1 + 1 * (y 0).val = (y 0).val; omega
  | ⟨1, _⟩ => show win2_1.index t (1 : Fin 2) * 50 + 1 * (y 1).val = (y 1).val; omega

/-- Window 2's block is its whole array. -/
theorem blk2_read (c : Dev nD) (t : Fin cfg2.N) : (iblk2 V c 2 t : S50x25.Idx → EReal) = V c main_arg5 := by
  obtain ⟨-, -, -, -, ea, eb, -, -⟩ := idx_facts t
  funext y
  show V c main_arg5 (((cfg2.win 2).blk t).view.emb y) = _
  refine congrArg (V c main_arg5) (funext fun a => Fin.ext ?_)
  match a with
  | ⟨0, _⟩ => show win2_2.index t (0 : Fin 2) * 50 + 1 * (y 0).val = (y 0).val; omega
  | ⟨1, _⟩ => show win2_2.index t (1 : Fin 2) * 25 + 1 * (y 1).val = (y 1).val; omega

/-- Entry `(r, j)` of the output block at point `t` is entry `(10000 t + r, j)` of the array. -/
theorem out_emb (t : Fin cfg2.N) (r : Fin 10000) (j : Fin 25) (hp : t.val * 10000 + r.val < 100000) :
    (((cfg2.win 3).blk t).view.emb (ix2 r j) : S100000x25.Idx) = ix2 (⟨t.val * 10000 + r.val, hp⟩ : Fin 100000) j := by
  obtain ⟨-, -, -, -, -, -, ea, eb⟩ := idx_facts t
  refine funext fun a => Fin.ext ?_
  match a with
  | ⟨0, _⟩ => show win2_3.index t (0 : Fin 2) * 10000 + 1 * r.val = t.val * 10000 + r.val; omega
  | ⟨1, _⟩ => show win2_3.index t (1 : Fin 2) * 25 + 1 * j.val = j.val; omega

/-- What point `t` writes back is block `t` of `dense` of the arrays as the region finds them. -/
theorem flushed_eq (c : Dev nD) (t : Fin cfg2.N) :
    (dat2 V c).flushed 3 t
      = ((cfg2.win 3).blk t).view.read (Elt Ideal) (dense (V c main_v58) (V c main_v59) (V c main_arg5)) := by
  show (cfg2.win 3).cut (grid2.coords t) ((dat2 V c).after 3 t) = _
  rw [after2_3]
  unfold out2_3
  rw [View.canon_unit_zero origin]
  simp only [View.ld_unit_zero (S := S10000x50) origin, View.ld_unit_zero (S := S1x50) origin, View.ld_unit_zero (S := S50x25) origin]
  funext y
  obtain ⟨r, j, rfl⟩ : ∃ (r : Fin 10000) (j : Fin 25), y = ix2 r j := ⟨y 0, y 1, eq_ix2 y⟩
  have hp : t.val * 10000 + r.val < 100000 := by have := t_lt t; have := r.isLt; omega
  show k2_pay1 (iblk2 V c 0 t) (iblk2 V c 1 t) (iblk2 V c 2 t) (ix2 r j)
    = dense (V c main_v58) (V c main_v59) (V c main_arg5) (((cfg2.win 3).blk t).view.emb (ix2 r j))
  rw [out_emb t r j hp]
  refine (congrFun (pay_eq (iblk2 V c 0 t) (iblk2 V c 1 t) (iblk2 V c 2 t)) (ix2 r j)).trans ?_
  have h0 : (fun k : Fin 50 => iblk2 V c 0 t (ix2 r k)) = fun k : Fin 50 => V c main_v58 (ix2 (⟨t.val * 10000 + r.val, hp⟩ : Fin 100000) k) :=
    funext fun k => blk0_read V c t r k hp
  have h1 := blk1_read V c t
  have h2 := blk2_read V c t
  show projRow (reluRow (fun k : Fin 50 => iblk2 V c 0 t (ix2 r k)) (iblk2 V c 1 t) (Ideal.ofBits .f32 0x00000000#32)) (iblk2 V c 2 t) j
    = projRow (reluRow (fun k : Fin 50 => V c main_v58 (ix2 (⟨t.val * 10000 + r.val, hp⟩ : Fin 100000) k)) (V c main_v59) (Ideal.ofBits .f32 0x00000000#32)) (V c main_arg5) j
  rw [h0, h1, h2]

/-- An index of the array is in point `t`'s block iff each coordinate is in the block's range on its axis. -/
theorem mem_blk (t : Fin cfg2.N) (i : S100000x25.Idx) :
    i ∈ ((cfg2.win 3).blk t).view.set ↔ ∀ a : Fin 2, win2_3.index t a * S10000x25.size a ≤ (i a).val ∧ (i a).val < win2_3.index t a * S10000x25.size a + S10000x25.size a := by
  show i ∈ ((View.whole main_v60).slice (win2_3.rect t)).set ↔ _
  rw [View.set_slice_whole, Rect.mem_set_unit]
  exact Iff.rfl

/-- Every row lies in the block of the point `row / 10000`. -/
theorem cover (i : S100000x25.Idx) : ∃ t : Fin cfg2.N, (cfg2.win 3).flush t = true ∧ i ∈ ((cfg2.win 3).blk t).view.set := by
  have hi0 : (i 0).val < 100000 := (i 0).isLt
  have hi1 : (i 1).val < 25 := (i 1).isLt
  have ht : (i 0).val / 10000 < cfg2.N := by rw [show cfg2.N = 10 from N_2]; omega
  obtain ⟨-, -, -, -, -, -, ea, eb⟩ := idx_facts ⟨(i 0).val / 10000, ht⟩
  refine ⟨⟨(i 0).val / 10000, ht⟩, flush2_3 _, ?_⟩
  rw [mem_blk]
  intro a
  match a with
  | ⟨0, _⟩ =>
    show win2_3.index ⟨(i 0).val / 10000, ht⟩ (0 : Fin 2) * 10000 ≤ (i 0).val ∧ (i 0).val < win2_3.index ⟨(i 0).val / 10000, ht⟩ (0 : Fin 2) * 10000 + 10000
    rw [ea]; show (i 0).val / 10000 * 10000 ≤ (i 0).val ∧ (i 0).val < (i 0).val / 10000 * 10000 + 10000; omega
  | ⟨1, _⟩ =>
    show win2_3.index ⟨(i 0).val / 10000, ht⟩ (1 : Fin 2) * 25 ≤ (i 1).val ∧ (i 1).val < win2_3.index ⟨(i 0).val / 10000, ht⟩ (1 : Fin 2) * 25 + 25
    rw [eb]; omega

/-- The output array after the region: `dense` of the input arrays as the region finds them. -/
theorem final (c : Dev nD) :
    (dat2 V c).arrAt 3 cfg2.N = dense (V c main_v58) (V c main_v59) (V c main_arg5) :=
  (dat2 V c).arrAt_eq_of_cover 3 _ (fun t _ => flushed_eq V c t) cover

end Cert.KernelIdeal.Layer3

end
-- ==== Proof.Head.lean ====
/-
  The last region: the third layer's bias and positive part, then the three dense layers of the head, each
  `relu (h · W + b)`, as the pipeline computes them: ten row blocks of 10000 nodes, each block's rows the head's rows
  of the same nodes.

  `head` is the composition on whole arrays. A block's stored value is the same seven row-wise steps on the block
  (`pay_eq`); the block at point `t` holds the array's rows `10000 t + r` (`blk0_read`); the bias rows and the weights
  are whole-array windows; so what point `t` writes back is block `t` of `head` (`flushed_eq`). The ten blocks cover
  the array (`cover`), which therefore ends holding `head` (`final`).
-/
import proofs.«412520_j3032246911605_3_alg».proof.Proof.Gen.KernelIdeal.Frame
import proofs.«412520_j3032246911605_3_alg».proof.Proof.LibRowOps
import Idealize.ShloMosaic.Lib.Pipeline.Value
import Idealize.ShloMosaic.Lib.ValueIdx

set_option maxRecDepth 16384

noncomputable section

namespace Cert.KernelIdeal.Head

open Cert.KernelIdeal Cert.KernelIdeal.Gen Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl
/-- The head on whole arrays: bias and positive part, then three times a product, a bias and the positive part. -/
def head (A : S100000x25.Idx → EReal) (B0 : S1x25.Idx → EReal) (W1 : S25x25.Idx → EReal) (B1 : S1x25.Idx → EReal)
    (W2 : S25x10.Idx → EReal) (B2 : S1x10.Idx → EReal) (W3 : S10x1.Idx → EReal) (B3 : S1x1.Idx → EReal) : S100000x1.Idx → EReal :=
  reluArr (projArr (reluArr (projArr (reluArr (projArr (reluArr A B0 (Ideal.ofBits .f32 0x00000000#32)) W1) B1 (Ideal.ofBits .f32 0x00000000#32)) W2) B2 (Ideal.ofBits .f32 0x00000000#32)) W3) B3 (Ideal.ofBits .f32 0x00000000#32)

theorem dims1_eq : dot_S10000x25_S25x25_S10000x25_1_0_0_1_n_n = DotDims.plain 10000 25 25 := rfl
theorem dims2_eq : dot_S10000x25_S25x10_S10000x10_1_0_0_1_n_n = DotDims.plain 10000 25 10 := rfl
theorem dims3_eq : dot_S10000x10_S10x1_S10000x1_1_0_0_1_n_n = DotDims.plain 10000 10 1 := rfl

/-- The body's stored value: the same seven steps on the block. -/
theorem pay_eq (x0 : Vec Ideal S10000x25 .f32) (x1 : Vec Ideal S1x25 .f32) (x2 : Vec Ideal S25x25 .f32) (x3 : Vec Ideal S1x25 .f32)
    (x4 : Vec Ideal S25x10 .f32) (x5 : Vec Ideal S1x10 .f32) (x6 : Vec Ideal S10x1 .f32) (x7 : Vec Ideal S1x1 .f32) :
    k3_pay1 x0 x1 x2 x3 x4 x5 x6 x7
      = reluArr (projArr (reluArr (projArr (reluArr (projArr (reluArr x0 x1 (Ideal.ofBits .f32 0x00000000#32)) x2) x3 (Ideal.ofBits .f32 0x00000000#32)) x4) x5 (Ideal.ofBits .f32 0x00000000#32)) x6) x7 (Ideal.ofBits .f32 0x00000000#32) := by
  unfold k3_pay1
  dsimp only
  rw [dims1_eq, dims2_eq, dims3_eq]
  refine (kernel_addBiasRelu_eq (M := 10000) (N := 1) _ x7 _ _ _).trans ?_
  refine congrArg (fun f => reluArr f x7 (Ideal.ofBits .f32 0x00000000#32)) ?_
  refine (kernel_matmul_eq (M := 10000) (K := 10) (N := 1) none _ x6).trans ?_
  refine congrArg (fun f => projArr f x6) ?_
  refine (kernel_addBiasRelu_eq (M := 10000) (N := 10) _ x5 _ _ _).trans ?_
  refine congrArg (fun f => reluArr f x5 (Ideal.ofBits .f32 0x00000000#32)) ?_
  refine (kernel_matmul_eq (M := 10000) (K := 25) (N := 10) none _ x4).trans ?_
  refine congrArg (fun f => projArr f x4) ?_
  refine (kernel_addBiasRelu_eq (M := 10000) (N := 25) _ x3 _ _ _).trans ?_
  refine congrArg (fun f => reluArr f x3 (Ideal.ofBits .f32 0x00000000#32)) ?_
  refine (kernel_matmul_eq (M := 10000) (K := 25) (N := 25) none _ x2).trans ?_
  exact congrArg (fun f => projArr f x2) (kernel_biasRelu_eq (M := 10000) (K := 25) x0 x1 _ _ _ _)

/-- The printed index maps over the grid: the row-blocked windows sit at block `t`, the others at the origin. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = t.val
    ∧ win3_8.index t (1 : Fin 2) = 0 :=
  (by decide +kernel : ∀ t : Fin grid3.N, _)

theorem t_lt (t : Fin cfg3.N) : t.val < 10 := lt_of_lt_of_eq t.isLt N_3

/-- Row `r` of the input block at point `t` is row `10000 t + r` of the array. -/
theorem blk0_read (c : Dev nD) (t : Fin cfg3.N) (r : Fin 10000) (k : Fin 25) (hp : t.val * 10000 + r.val < 100000) :
    iblk3 V c 0 t (ix2 r k) = V c main_v73 (ix2 (⟨t.val * 10000 + r.val, hp⟩ : Fin 100000) k) := by
  obtain ⟨ea, eb, -, -, -, -, -, -, -, -, -, -, -, -, -, -, -, -⟩ := idx_facts t
  show V c main_v73 (((cfg3.win 0).blk t).view.emb (ix2 r k)) = _
  refine congrArg (V c main_v73) (funext fun a => Fin.ext ?_)
  match a with
  | ⟨0, _⟩ => show win3_0.index t (0 : Fin 2) * 10000 + 1 * r.val = t.val * 10000 + r.val; omega
  | ⟨1, _⟩ => show win3_0.index t (1 : Fin 2) * 25 + 1 * k.val = k.val; omega

/-- Window 1's block is its whole array. -/
theorem blk1_read (c : Dev nD) (t : Fin cfg3.N) : (iblk3 V c 1 t : S1x25.Idx → EReal) = V c main_v74 := by
  obtain ⟨-, -, ea, eb, -, -, -, -, -, -, -, -, -, -, -, -, -, -⟩ := idx_facts t
  funext y
  show V c main_v74 (((cfg3.win 1).blk t).view.emb y) = _
  refine congrArg (V c main_v74) (funext fun a => Fin.ext ?_)
  match a with
  | ⟨0, _⟩ => show win3_1.index t (0 : Fin 2) * 1 + 1 * (y 0).val = (y 0).val; omega
  | ⟨1, _⟩ => show win3_1.index t (1 : Fin 2) * 25 + 1 * (y 1).val = (y 1).val; omega

/-- Window 2's block is its whole array. -/
theorem blk2_read (c : Dev nD) (t : Fin cfg3.N) : (iblk3 V c 2 t : S25x25.Idx → EReal) = V c main_arg7 := by
  obtain ⟨-, -, -, -, ea, eb, -, -, -, -, -, -, -, -, -, -, -, -⟩ := idx_facts t
  funext y
  show V c main_arg7 (((cfg3.win 2).blk t).view.emb y) = _
  refine congrArg (V c main_arg7) (funext fun a => Fin.ext ?_)
  match a with
  | ⟨0, _⟩ => show win3_2.index t (0 : Fin 2) * 25 + 1 * (y 0).val = (y 0).val; omega
  | ⟨1, _⟩ => show win3_2.index t (1 : Fin 2) * 25 + 1 * (y 1).val = (y 1).val; omega

/-- Window 3's block is its whole array. -/
theorem blk3_read (c : Dev nD) (t : Fin cfg3.N) : (iblk3 V c 3 t : S1x25.Idx → EReal) = V c main_v75 := by
  obtain ⟨-, -, -, -, -, -, ea, eb, -, -, -, -, -, -, -, -, -, -⟩ := idx_facts t
  funext y
  show V c main_v75 (((cfg3.win 3).blk t).view.emb y) = _
  refine congrArg (V c main_v75) (funext fun a => Fin.ext ?_)
  match a with
  | ⟨0, _⟩ => show win3_3.index t (0 : Fin 2) * 1 + 1 * (y 0).val = (y 0).val; omega
  | ⟨1, _⟩ => show win3_3.index t (1 : Fin 2) * 25 + 1 * (y 1).val = (y 1).val; omega

/-- Window 4's block is its whole array. -/
theorem blk4_read (c : Dev nD) (t : Fin cfg3.N) : (iblk3 V c 4 t : S25x10.Idx → EReal) = V c main_arg9 := by
  obtain ⟨-, -, -, -, -, -, -, -, ea, eb, -, -, -, -, -, -, -, -⟩ := idx_facts t
  funext y
  show V c main_arg9 (((cfg3.win 4).blk t).view.emb y) = _
  refine congrArg (V c main_arg9) (funext fun a => Fin.ext ?_)
  match a with
  | ⟨0, _⟩ => show win3_4.index t (0 : Fin 2) * 25 + 1 * (y 0).val = (y 0).val; omega
  | ⟨1, _⟩ => show win3_4.index t (1 : Fin 2) * 10 + 1 * (y 1).val = (y 1).val; omega

/-- Window 5's block is its whole array. -/
theorem blk5_read (c : Dev nD) (t : Fin cfg3.N) : (iblk3 V c 5 t : S1x10.Idx → EReal) = V c main_v76 := by
  obtain ⟨-, -, -, -, -, -, -, -, -, -, ea, eb, -, -, -, -, -, -⟩ := idx_facts t
  funext y
  show V c main_v76 (((cfg3.win 5).blk t).view.emb y) = _
  refine congrArg (V c main_v76) (funext fun a => Fin.ext ?_)
  match a with
  | ⟨0, _⟩ => show win3_5.index t (0 : Fin 2) * 1 + 1 * (y 0).val = (y 0).val; omega
  | ⟨1, _⟩ => show win3_5.index t (1 : Fin 2) * 10 + 1 * (y 1).val = (y 1).val; omega

/-- Window 6's block is its whole array. -/
theorem blk6_read (c : Dev nD) (t : Fin cfg3.N) : (iblk3 V c 6 t : S10x1.Idx → EReal) = V c main_arg11 := by
  obtain ⟨-, -, -, -, -, -, -, -, -, -, -, -, ea, eb, -, -, -, -⟩ := idx_facts t
  funext y
  show V c main_arg11 (((cfg3.win 6).blk t).view.emb y) = _
  refine congrArg (V c main_arg11) (funext fun a => Fin.ext ?_)
  match a with
  | ⟨0, _⟩ => show win3_6.index t (0 : Fin 2) * 10 + 1 * (y 0).val = (y 0).val; omega
  | ⟨1, _⟩ => show win3_6.index t (1 : Fin 2) * 1 + 1 * (y 1).val = (y 1).val; omega

/-- Window 7's block is its whole array. -/
theorem blk7_read (c : Dev nD) (t : Fin cfg3.N) : (iblk3 V c 7 t : S1x1.Idx → EReal) = V c main_v77 := by
  obtain ⟨-, -, -, -, -, -, -, -, -, -, -, -, -, -, ea, eb, -, -⟩ := idx_facts t
  funext y
  show V c main_v77 (((cfg3.win 7).blk t).view.emb y) = _
  refine congrArg (V c main_v77) (funext fun a => Fin.ext ?_)
  match a with
  | ⟨0, _⟩ => show win3_7.index t (0 : Fin 2) * 1 + 1 * (y 0).val = (y 0).val; omega
  | ⟨1, _⟩ => show win3_7.index t (1 : Fin 2) * 1 + 1 * (y 1).val = (y 1).val; omega

/-- Entry `(r, j)` of the output block at point `t` is entry `(10000 t + r, j)` of the array. -/
theorem out_emb (t : Fin cfg3.N) (r : Fin 10000) (j : Fin 1) (hp : t.val * 10000 + r.val < 100000) :
    (((cfg3.win 8).blk t).view.emb (ix2 r j) : S100000x1.Idx) = ix2 (⟨t.val * 10000 + r.val, hp⟩ : Fin 100000) j := by
  obtain ⟨-, -, -, -, -, -, -, -, -, -, -, -, -, -, -, -, ea, eb⟩ := idx_facts t
  refine funext fun a => Fin.ext ?_
  match a with
  | ⟨0, _⟩ => show win3_8.index t (0 : Fin 2) * 10000 + 1 * r.val = t.val * 10000 + r.val; omega
  | ⟨1, _⟩ => show win3_8.index t (1 : Fin 2) * 1 + 1 * j.val = j.val; omega

/-- What point `t` writes back is block `t` of `head` of the arrays as the region finds them. -/
theorem flushed_eq (c : Dev nD) (t : Fin cfg3.N) :
    (dat3 V c).flushed 8 t
      = ((cfg3.win 8).blk t).view.read (Elt Ideal) (head (V c main_v73) (V c main_v74) (V c main_arg7) (V c main_v75) (V c main_arg9) (V c main_v76) (V c main_arg11) (V c main_v77)) := by
  show (cfg3.win 8).cut (grid3.coords t) ((dat3 V c).after 8 t) = _
  rw [after3_8]
  unfold out3_8
  rw [View.canon_unit_zero origin]
  simp only [View.ld_unit_zero (S := S10000x25) origin, View.ld_unit_zero (S := S1x25) origin, View.ld_unit_zero (S := S25x25) origin, View.ld_unit_zero (S := S1x25) origin, View.ld_unit_zero (S := S25x10) origin, View.ld_unit_zero (S := S1x10) origin, View.ld_unit_zero (S := S10x1) origin, View.ld_unit_zero (S := S1x1) origin]
  funext y
  obtain ⟨r, j, rfl⟩ : ∃ (r : Fin 10000) (j : Fin 1), y = ix2 r j := ⟨y 0, y 1, eq_ix2 y⟩
  have hp : t.val * 10000 + r.val < 100000 := by have := t_lt t; have := r.isLt; omega
  show k3_pay1 (iblk3 V c 0 t) (iblk3 V c 1 t) (iblk3 V c 2 t) (iblk3 V c 3 t) (iblk3 V c 4 t) (iblk3 V c 5 t) (iblk3 V c 6 t) (iblk3 V c 7 t) (ix2 r j)
    = head (V c main_v73) (V c main_v74) (V c main_arg7) (V c main_v75) (V c main_arg9) (V c main_v76) (V c main_arg11) (V c main_v77) (((cfg3.win 8).blk t).view.emb (ix2 r j))
  rw [out_emb t r j hp]
  refine (congrFun (pay_eq (iblk3 V c 0 t) (iblk3 V c 1 t) (iblk3 V c 2 t) (iblk3 V c 3 t) (iblk3 V c 4 t) (iblk3 V c 5 t) (iblk3 V c 6 t) (iblk3 V c 7 t)) (ix2 r j)).trans ?_
  have h0 : (fun k : Fin 25 => iblk3 V c 0 t (ix2 r k)) = fun k : Fin 25 => V c main_v73 (ix2 (⟨t.val * 10000 + r.val, hp⟩ : Fin 100000) k) :=
    funext fun k => blk0_read V c t r k hp
  have h1 := blk1_read V c t
  have h2 := blk2_read V c t
  have h3 := blk3_read V c t
  have h4 := blk4_read V c t
  have h5 := blk5_read V c t
  have h6 := blk6_read V c t
  have h7 := blk7_read V c t
  show reluRow (projRow (reluRow (projRow (reluRow (projRow (reluRow (fun k : Fin 25 => iblk3 V c 0 t (ix2 r k)) (iblk3 V c 1 t) (Ideal.ofBits .f32 0x00000000#32)) (iblk3 V c 2 t)) (iblk3 V c 3 t) (Ideal.ofBits .f32 0x00000000#32)) (iblk3 V c 4 t)) (iblk3 V c 5 t) (Ideal.ofBits .f32 0x00000000#32)) (iblk3 V c 6 t)) (iblk3 V c 7 t) (Ideal.ofBits .f32 0x00000000#32) j
    = reluRow (projRow (reluRow (projRow (reluRow (projRow (reluRow (fun k : Fin 25 => V c main_v73 (ix2 (⟨t.val * 10000 + r.val, hp⟩ : Fin 100000) k)) (V c main_v74) (Ideal.ofBits .f32 0x00000000#32)) (V c main_arg7)) (V c main_v75) (Ideal.ofBits .f32 0x00000000#32)) (V c main_arg9)) (V c main_v76) (Ideal.ofBits .f32 0x00000000#32)) (V c main_arg11)) (V c main_v77) (Ideal.ofBits .f32 0x00000000#32) j
  rw [h0, h1, h2, h3, h4, h5, h6, h7]

/-- An index of the array is in point `t`'s block iff each coordinate is in the block's range on its axis. -/
theorem mem_blk (t : Fin cfg3.N) (i : S100000x1.Idx) :
    i ∈ ((cfg3.win 8).blk t).view.set ↔ ∀ a : Fin 2, win3_8.index t a * S10000x1.size a ≤ (i a).val ∧ (i a).val < win3_8.index t a * S10000x1.size a + S10000x1.size a := by
  show i ∈ ((View.whole main_v78).slice (win3_8.rect t)).set ↔ _
  rw [View.set_slice_whole, Rect.mem_set_unit]
  exact Iff.rfl

/-- Every row lies in the block of the point `row / 10000`. -/
theorem cover (i : S100000x1.Idx) : ∃ t : Fin cfg3.N, (cfg3.win 8).flush t = true ∧ i ∈ ((cfg3.win 8).blk t).view.set := by
  have hi0 : (i 0).val < 100000 := (i 0).isLt
  have hi1 : (i 1).val < 1 := (i 1).isLt
  have ht : (i 0).val / 10000 < cfg3.N := by rw [show cfg3.N = 10 from N_3]; omega
  obtain ⟨-, -, -, -, -, -, -, -, -, -, -, -, -, -, -, -, ea, eb⟩ := idx_facts ⟨(i 0).val / 10000, ht⟩
  refine ⟨⟨(i 0).val / 10000, ht⟩, flush3_8 _, ?_⟩
  rw [mem_blk]
  intro a
  match a with
  | ⟨0, _⟩ =>
    show win3_8.index ⟨(i 0).val / 10000, ht⟩ (0 : Fin 2) * 10000 ≤ (i 0).val ∧ (i 0).val < win3_8.index ⟨(i 0).val / 10000, ht⟩ (0 : Fin 2) * 10000 + 10000
    rw [ea]; show (i 0).val / 10000 * 10000 ≤ (i 0).val ∧ (i 0).val < (i 0).val / 10000 * 10000 + 10000; omega
  | ⟨1, _⟩ =>
    show win3_8.index ⟨(i 0).val / 10000, ht⟩ (1 : Fin 2) * 1 ≤ (i 1).val ∧ (i 1).val < win3_8.index ⟨(i 0).val / 10000, ht⟩ (1 : Fin 2) * 1 + 1
    rw [eb]; omega

/-- The output array after the region: `head` of the input arrays as the region finds them. -/
theorem final (c : Dev nD) :
    (dat3 V c).arrAt 8 cfg3.N = head (V c main_v73) (V c main_v74) (V c main_arg7) (V c main_v75) (V c main_arg9) (V c main_v76) (V c main_arg11) (V c main_v77) :=
  (dat3 V c).arrAt_eq_of_cover 8 _ (fun t _ => flushed_eq V c t) cover

end Cert.KernelIdeal.Head

end
-- ==== Proof.Fold9.lean ====
/-
  The kernel program's buffers when its last region is entered, and what that region leaves.

  The third region leaves, at the ideal values, the reference's third projection (`W8_v60`); the host stretch after
  it aggregates those rows along the same edges, the reference's third aggregation stage (`W9_v73`,
  `W9_v73_ideal`), and views the four remaining biases as rows. The last region applies the head to them, which
  on whole arrays is the reference's result stage (`result`).
-/
import proofs.«412520_j3032246911605_3_alg».proof.Proof.Fold7
import proofs.«412520_j3032246911605_3_alg».proof.Proof.Layer3
import proofs.«412520_j3032246911605_3_alg».proof.Proof.Head
import Idealize.ShloMosaic.Lib.StableHlo.Run

set_option maxRecDepth 16384

noncomputable section

namespace Cert.KernelIdeal.Fold

open Cert.KernelIdeal Cert.KernelIdeal.Gen Cert.ReferenceIdeal.ReadP
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-- Reads the host stretch between the third and the last region at one buffer. -/
macro "stretch3_results" : tactic =>
  `(tactic| (show StableHlo.after hostOps3 _ _ = _
             dsimp only [hostOps3]
             after_results_simp))

theorem W9_arg7 : W9 m ρ c (Proc.devRef .tc main_arg7) = a7 m c := by
  stretch3_results
  exact (W8_of_ne m ρ c main_arg7 (by decide)).trans (W7_arg7 m ρ c)
theorem W9_arg9 : W9 m ρ c (Proc.devRef .tc main_arg9) = a9 m c := by
  stretch3_results
  exact (W8_of_ne m ρ c main_arg9 (by decide)).trans (W7_arg9 m ρ c)
theorem W9_arg11 : W9 m ρ c (Proc.devRef .tc main_arg11) = a11 m c := by
  stretch3_results
  exact (W8_of_ne m ρ c main_arg11 (by decide)).trans (W7_arg11 m ρ c)

/-- The third projection aggregated along the edges: the reference's aggregation of what the third region left. -/
theorem W9_v73 : W9 m ρ c (Proc.devRef .tc main_v73)
    = Cert.ReferenceIdeal.Agg.agg3 (F := F) (W8 m ρ c (Proc.devRef .tc main_v60)) (a13 m c) := by
  stretch3_results
  rw [W8_of_ne m ρ c main_v5 (by decide), W8_of_ne m ρ c main_v6 (by decide), W8_of_ne m ρ c main_v29 (by decide),
    W7_v5, W7_v6, W7_v29]
  rfl

/-- The third bias viewed as a row. -/
theorem W9_v74 (h : S25.ShapeCasts S1x25) : W9 m ρ c (Proc.devRef .tc main_v74) = shapeCast S1x25 (a6 m c) h := by
  stretch3_results
  rw [W8_of_ne m ρ c main_arg6 (by decide), W7_arg6]
  rfl

/-- The head's three biases viewed as rows. -/
theorem W9_v75 (h : S25.ShapeCasts S1x25) : W9 m ρ c (Proc.devRef .tc main_v75) = shapeCast S1x25 (a8 m c) h := by
  stretch3_results
  rw [W8_of_ne m ρ c main_arg8 (by decide), W7_arg8]
  rfl

theorem W9_v76 (h : S10.ShapeCasts S1x10) : W9 m ρ c (Proc.devRef .tc main_v76) = shapeCast S1x10 (a10 m c) h := by
  stretch3_results
  rw [W8_of_ne m ρ c main_arg10 (by decide), W7_arg10]
  rfl

theorem W9_v77 (h : S1.ShapeCasts S1x1) : W9 m ρ c (Proc.devRef .tc main_v77) = shapeCast S1x1 (a12 m c) h := by
  stretch3_results
  rw [W8_of_ne m ρ c main_arg12 (by decide), W7_arg12]
  rfl

/-! ## At the ideal values -/

/-- What the third region leaves: the reference's third projection. -/
theorem W8_v60 (m : (ℓ : Loc nD τ sig) → Buf (Elt Ideal) ℓ) (ρ : Dev nD → PrngReg) (c : Dev nD) (h1 : S100.ShapeCasts S1x100) (h2 : S50.ShapeCasts S1x50) : W8 m ρ c (Proc.devRef .tc main_v60)
    = val_main_v92 (F := Ideal) (a0 m c) (a1 m c) (a2 m c) (a3 m c) (a4 m c) (a5 m c) (a13 m c) :=
  (W8_arr m ρ c 3).trans ((Cert.KernelIdeal.Layer3.final (V7 m ρ) c).trans (by
    show Cert.KernelIdeal.Layer3.dense (W7 m ρ c (Proc.devRef .tc main_v58)) (W7 m ρ c (Proc.devRef .tc main_v59))
      (W7 m ρ c (Proc.devRef .tc main_arg5)) = _
    rw [W7_v58_ideal m ρ c h1, W7_v59 m ρ c h2, W7_arg5]
    exact (Cert.ReferenceIdeal.Layers.v92_eq _ _ _ _ _ _ _ h2).symm))

/-- The last region's input rows: the reference's third aggregation stage. -/
theorem W9_v73_ideal (m : (ℓ : Loc nD τ sig) → Buf (Elt Ideal) ℓ) (ρ : Dev nD → PrngReg) (c : Dev nD) (h1 : S100.ShapeCasts S1x100) (h2 : S50.ShapeCasts S1x50) : W9 m ρ c (Proc.devRef .tc main_v73)
    = val_main_v131 (F := Ideal) (a0 m c) (a1 m c) (a2 m c) (a3 m c) (a4 m c) (a5 m c) (a13 m c) := by
  rw [W9_v73, W8_v60 m ρ c h1 h2]
  exact (Cert.ReferenceIdeal.Agg.v131_agg _ _ _ _ _ _ _).symm

/-- The result array after the last region: the reference's result stage of the arguments. -/
theorem result (m : (ℓ : Loc nD τ sig) → Buf (Elt Ideal) ℓ) (ρ : Dev nD → PrngReg) (c : Dev nD) (h1 : S100.ShapeCasts S1x100) (h2 : S50.ShapeCasts S1x50) (h3 : S25.ShapeCasts S1x25)
    (h4 : S10.ShapeCasts S1x10) (h5 : S1.ShapeCasts S1x1) :
    W10 m ρ c (Proc.devRef .tc main_v78)
      = val_main_v150 (F := Ideal) (a0 m c) (a1 m c) (a2 m c) (a3 m c) (a4 m c) (a5 m c) (a6 m c) (a7 m c) (a8 m c)
          (a9 m c) (a10 m c) (a11 m c) (a12 m c) (a13 m c) :=
  (W10_arr m ρ c 8).trans ((Cert.KernelIdeal.Head.final (V9 m ρ) c).trans (by
    show Cert.KernelIdeal.Head.head (W9 m ρ c (Proc.devRef .tc main_v73)) (W9 m ρ c (Proc.devRef .tc main_v74))
      (W9 m ρ c (Proc.devRef .tc main_arg7)) (W9 m ρ c (Proc.devRef .tc main_v75)) (W9 m ρ c (Proc.devRef .tc main_arg9))
      (W9 m ρ c (Proc.devRef .tc main_v76)) (W9 m ρ c (Proc.devRef .tc main_arg11)) (W9 m ρ c (Proc.devRef .tc main_v77)) = _
    rw [W9_v73_ideal m ρ c h1 h2, W9_v74 m ρ c h3, W9_arg7, W9_v75 m ρ c h3, W9_arg9, W9_v76 m ρ c h4, W9_arg11, W9_v77 m ρ c h5]
    exact (Cert.ReferenceIdeal.Layers.v150_eq _ _ _ _ _ _ _ _ _ _ _ _ _ _ h3 h3 h4 h5).symm))

end Cert.KernelIdeal.Fold

end
-- ==== Proof.lean ====
/-
  A three-layer graph convolution with a dense head, certified equal to its reference over the extended reals.

  Both programs prepare the graph once per use by the same host operations (edges with self loops appended, the
  symmetric normalisation from the in-degrees) and aggregate projected node rows along the edges by the same gather,
  scaling and scatter-add. They differ in where the dense steps run. The reference computes `relu (agg (x · W) + b)`
  layer by layer on the host and then three dense layers `relu (h · W + b)`. The kernel computes the first projection
  `X · W1` in a pipelined region of ten row blocks, fuses each layer's bias and positive part into the next layer's
  projection (`relu (agg + b) · W`, two more regions), and fuses the last bias and positive part with the whole head
  (a fourth region). Every dense step acts on each node's row by itself, so a block of rows gives the rows of the whole
  array's result; a `tpu.matmul` into the zero accumulator and the host's `dot_general` are the same sum along the
  contracted axis; a bias row broadcast down the rows is the bias vector. No law beyond these is used, so the
  precondition on the inputs is never opened.

  The modules: `Layer1`, `Layer2`, `Layer3`, `Head` read what each region leaves in its output array as one
  whole-array function of its input arrays; `RefLayers` and `RefAgg` state the reference's stages in the same terms;
  `Fold3` … `Fold9` follow the kernel program's buffers through @main to the result array; `KernelRun` is the kernel
  program's run with the result array kept in its post.
-/
import proofs.«412520_j3032246911605_3_alg».proof.Defs
import proofs.«412520_j3032246911605_3_alg».proof.Proof.Gen.Kernel
import proofs.«412520_j3032246911605_3_alg».proof.Proof.Gen.Kernel.Skeleton
import proofs.«412520_j3032246911605_3_alg».proof.Proof.Gen.Kernel.Launch
import proofs.«412520_j3032246911605_3_alg».proof.Proof.Gen.Kernel.Points
import proofs.«412520_j3032246911605_3_alg».proof.Proof.Gen.Kernel.Frame
import proofs.«412520_j3032246911605_3_alg».proof.Proof.Gen.KernelIdeal
import proofs.«412520_j3032246911605_3_alg».proof.Proof.Gen.KernelIdeal.Skeleton
import proofs.«412520_j3032246911605_3_alg».proof.Proof.Gen.KernelIdeal.Launch
import proofs.«412520_j3032246911605_3_alg».proof.Proof.Gen.KernelIdeal.Points
import proofs.«412520_j3032246911605_3_alg».proof.Proof.Gen.KernelIdeal.Frame
import proofs.«412520_j3032246911605_3_alg».proof.Proof.Gen.ReferenceIdeal
import proofs.«412520_j3032246911605_3_alg».proof.Proof.Gen.Pre_finite_inputs
import proofs.«412520_j3032246911605_3_alg».proof.Proof.RefRun
import proofs.«412520_j3032246911605_3_alg».proof.Proof.RefRead
import proofs.«412520_j3032246911605_3_alg».proof.Proof.KernelRun
import proofs.«412520_j3032246911605_3_alg».proof.Proof.Fold9
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the reference's result stage of the kernel program's arguments: the kernel program by the
    fold through its four regions, the reference by its run, its arguments being the kernel program's. -/
theorem algebraic : Cert.algebraic_KernelIdeal_ReferenceIdeal := by
  intro m ρ m' ρ' _ hagree
  refine ⟨fun c => Cert.ReferenceIdeal.ReadP.val_main_v150 (F := Ideal) (Cert.KernelIdeal.Fold.a0 m c) (Cert.KernelIdeal.Fold.a1 m c) (Cert.KernelIdeal.Fold.a2 m c) (Cert.KernelIdeal.Fold.a3 m c) (Cert.KernelIdeal.Fold.a4 m c) (Cert.KernelIdeal.Fold.a5 m c) (Cert.KernelIdeal.Fold.a6 m c) (Cert.KernelIdeal.Fold.a7 m c) (Cert.KernelIdeal.Fold.a8 m c) (Cert.KernelIdeal.Fold.a9 m c) (Cert.KernelIdeal.Fold.a10 m c) (Cert.KernelIdeal.Fold.a11 m c) (Cert.KernelIdeal.Fold.a12 m c) (Cert.KernelIdeal.Fold.a13 m c), ?_, ?_⟩
  · exact (θ_run Cert.KernelIdeal.defs _ _).mono
      (fun r h c => ⟨(h c).1.trans (Cert.KernelIdeal.Fold.result m ρ c (by decide) (by decide) (by decide) (by decide) (by decide)), (h c).2⟩)
      (Cert.KernelIdeal.RunValue.run_result m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13⟩ := hagree c
    rw [Cert.ReferenceIdeal.ReadP.val_main_v150_eq, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
